-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v42) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S3x64x64 : Shape := ⟨3, ![3, 64, 64]⟩
abbrev S3x64 : Shape := ⟨2, ![3, 64]⟩
abbrev S64x128 : Shape := ⟨2, ![64, 128]⟩
abbrev S128 : Shape := ⟨1, ![128]⟩
abbrev S128x2 : Shape := ⟨2, ![128, 2]⟩
abbrev S2 : Shape := ⟨1, ![2]⟩
abbrev S_ : Shape := ⟨0, ![]⟩
abbrev S1x1600000 : Shape := ⟨2, ![1, 1600000]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S2x1600000 32) (main_arg9 : FVec F S2 .f32) (main_v33 : IVec S_ 1) : IVec S_ 1 :=
  let main_v34 : FVec F S2 .f32 := Host.absf main_arg9
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  let main_v39 : IVec S1x1600000 32 := (extractStridedSlice S1x1600000 ![0, 0] · slices_S2x1600000_S1x1600000_0_0) main_arg1
  let main_v40 : IVec S1600000 32 := shapeCast S1600000 main_v39 shapeCasts_S1x1600000_S1600000
  let main_c_14 : IVec S_ 32 := constantI S_ 32 0#32
  let main_v41 : IVec S1600000 32 := broadcastInDim S1600000 ![] bcast_S_S1600000 main_c_14
  let main_v42 : IVec S1600000 1 := cmpi .sge main_v40 main_v41
  let main_c_15 : IVec S_ 1 := constantI S_ 1 1#1
  let main_v43 : IVec S_ 1 := (fun x v => Host.reduce IntOp.andi x v reducesTo_S1600000_S_d0 h_S_) main_v42 main_c_15
  let main_v44 : IVec S_ 1 := andi main_v38 main_v43
  let main_v45 : IVec S1x1600000 32 := (extractStridedSlice S1x1600000 ![0, 0] · slices_S2x1600000_S1x1600000_0_0) main_arg1
  let main_v46 : IVec S1600000 32 := shapeCast S1600000 main_v45 shapeCasts_S1x1600000_S1600000
  let main_c_16 : IVec S_ 32 := constantI S_ 32 100000#32
  let main_v47 : IVec S1600000 32 := broadcastInDim S1600000 ![] bcast_S_S1600000 main_c_16
  let main_v48 : IVec S1600000 1 := cmpi .slt main_v46 main_v47
  let main_c_17 : IVec S_ 1 := constantI S_ 1 1#1
  let main_v49 : IVec S_ 1 := (fun x v => Host.reduce IntOp.andi x v reducesTo_S1600000_S_d0 h_S_) main_v48 main_c_17
  let main_v50 : IVec S_ 1 := andi main_v44 main_v49
  main_v50

def fn_part1 {F : FTy → Type} [FloatOps F] (main_arg1 : IVec S2x1600000 32) (main_arg6 : FVec F S64x128 .f32) (main_arg7 : FVec F S128 .f32) (main_arg8 : FVec F S128x2 .f32) (main_arg9 : FVec F S2 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x2 .f32 := Host.absf main_arg8
  let main_cst_10 : FVec F S_ .f32 := constant S_ .f32 0x7F800000#32
  let main_v30 : FVec F S128x2 .f32 := broadcastInDim S128x2 ![] bcast_S_S128x2 main_cst_10
  let main_v31 : IVec S128x2 1 := cmpf .olt main_v29 main_v30
  let main_c_11 : IVec S_ 1 := constantI S_ 1 1#1
  let main_v32 : IVec S_ 1 := (fun x v => Host.reduce IntOp.andi x v reducesTo_S128x2_S_d0_1 h_S_) main_v31 main_c_11
  let main_v33 : IVec S_ 1 := andi main_v28 main_v32
  fn_part2 (F := F) main_arg1 main_arg9 main_v33

def fn {F : FTy → Type} [FloatOps F] (main_arg0 : FVec F S100000x64 .f32) (main_arg1 : IVec S2x1600000 32) (main_arg2 : IVec S100000 32) (main_arg3 : FVec F S3x64x64 .f32) (main_arg4 : FVec F S3x64x64 .f32) (main_arg5 : FVec F S3x64 .f32) (main_arg6 : FVec F S64x128 .f32) (main_arg7 : FVec F S128 .f32) (main_arg8 : FVec F S128x2 .f32) (main_arg9 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg3
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64x64 .f32 := Host.absf main_arg4
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x64 .f32 := Host.absf main_arg5
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg1 main_arg6 main_arg7 main_arg8 main_arg9 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S3x64x64 : Shape := ⟨3, ![3, 64, 64]⟩
abbrev S3x64 : Shape := ⟨2, ![3, 64]⟩
abbrev S64x128 : Shape := ⟨2, ![64, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S10000x64 : Shape := ⟨2, ![10000, 64]⟩
abbrev S512x64 : Shape := ⟨2, ![512, 64]⟩
abbrev S100000x1 : Shape := ⟨2, ![100000, 1]⟩
abbrev S1x128 : Shape := ⟨2, ![1, 128]⟩
abbrev S1x2 : Shape := ⟨2, ![1, 2]⟩
abbrev S512x2 : Shape := ⟨2, ![512, 2]⟩
abbrev S512x128 : Shape := ⟨2, ![512, 128]⟩

abbrev nBuf : Space → Nat
  | .hbm => 126
  | .vmem => 33
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S3x64x64, .f32⟩
  | .hbm, ⟨4, _⟩ => ⟨S3x64x64, .f32⟩
  | .hbm, ⟨5, _⟩ => ⟨S3x64, .f32⟩
  | .hbm, ⟨6, _⟩ => ⟨S64x128, .f32⟩
  | .hbm, ⟨7, _⟩ => ⟨S128, .f32⟩
  | .hbm, ⟨8, _⟩ => ⟨S128x2, .f32⟩
  | .hbm, ⟨9, _⟩ => ⟨S2, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1, .i32⟩
  | .hbm, ⟨23, _⟩ => ⟨S_, .i32⟩
  | .hbm, ⟨24, _⟩ => ⟨S1600000x1, .i32⟩
  | .hbm, ⟨25, _⟩ => ⟨S1600000x1, .i1⟩
  | .hbm, ⟨26, _⟩ => ⟨S1x1, .i32⟩
  | .hbm, ⟨27, _⟩ => ⟨S1600000x1, .i32⟩
  | .hbm, ⟨28, _⟩ => ⟨S1600000x1, .i1⟩
  | .hbm, ⟨29, _⟩ => ⟨S1600000x1, .i1⟩
  | .hbm, ⟨30, _⟩ => ⟨S_, .i1⟩
  | .hbm, ⟨31, _⟩ => ⟨S1600000, .i1⟩
  | .hbm, ⟨32, _⟩ => ⟨S1600000x64, .f32⟩
  | .hbm, ⟨33, _⟩ => ⟨S1600000x64, .i1⟩
  | .hbm, ⟨34, _⟩ => ⟨S_, .f32⟩
  | .hbm, ⟨35, _⟩ => ⟨S1600000x64, .f32⟩
  | .hbm, ⟨36, _⟩ => ⟨S1600000x64, .f32⟩
  | .hbm, ⟨37, _⟩ => ⟨S_, .f32⟩
  | .hbm, ⟨38, _⟩ => ⟨S100000x64, .f32⟩
  | .hbm, ⟨39, _⟩ => ⟨S1600000x1, .i32⟩
  | .hbm, ⟨40, _⟩ => ⟨S100000x64, .f32⟩
  | .hbm, ⟨41, _⟩ => ⟨S1x64x64, .f32⟩
  | .hbm, ⟨42, _⟩ => ⟨S64x64, .f32⟩
  | .hbm, ⟨43, _⟩ => ⟨S1x64x64, .f32⟩
  | .hbm, ⟨44, _⟩ => ⟨S64x64, .f32⟩
  | .hbm, ⟨45, _⟩ => ⟨S1x64, .f32⟩
  | .hbm, ⟨46, _⟩ => ⟨S64, .f32⟩
  | .hbm, ⟨47, _⟩ => ⟨S1x64, .f32⟩
  | .hbm, ⟨48, _⟩ => ⟨S100000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1, .i32⟩
  | .hbm, ⟨58, _⟩ => ⟨S_, .i32⟩
  | .hbm, ⟨59, _⟩ => ⟨S1600000x1, .i32⟩
  | .hbm, ⟨60, _⟩ => ⟨S1600000x1, .i1⟩
  | .hbm, ⟨61, _⟩ => ⟨S1x1, .i32⟩
  | .hbm, ⟨62, _⟩ => ⟨S1600000x1, .i32⟩
  | .hbm, ⟨63, _⟩ => ⟨S1600000x1, .i1⟩
  | .hbm, ⟨64, _⟩ => ⟨S1600000x1, .i1⟩
  | .hbm, ⟨65, _⟩ => ⟨S_, .i1⟩
  | .hbm, ⟨66, _⟩ => ⟨S1600000, .i1⟩
  | .hbm, ⟨67, _⟩ => ⟨S1600000x64, .f32⟩
  | .hbm, ⟨68, _⟩ => ⟨S1600000x64, .i1⟩
  | .hbm, ⟨69, _⟩ => ⟨S_, .f32⟩
  | .hbm, ⟨70, _⟩ => ⟨S1600000x64, .f32⟩
  | .hbm, ⟨71, _⟩ => ⟨S1600000x64, .f32⟩
  | .hbm, ⟨72, _⟩ => ⟨S_, .f32⟩
  | .hbm, ⟨73, _⟩ => ⟨S100000x64, .f32⟩
  | .hbm, ⟨74, _⟩ => ⟨S1600000x1, .i32⟩
  | .hbm, ⟨75, _⟩ => ⟨S100000x64, .f32⟩
  | .hbm, ⟨76, _⟩ => ⟨S1x64x64, .f32⟩
  | .hbm, ⟨77, _⟩ => ⟨S64x64, .f32⟩
  | .hbm, ⟨78, _⟩ => ⟨S1x64x64, .f32⟩
  | .hbm, ⟨79, _⟩ => ⟨S64x64, .f32⟩
  | .hbm, ⟨80, _⟩ => ⟨S1x64, .f32⟩
  | .hbm, ⟨81, _⟩ => ⟨S64, .f32⟩
  | .hbm, ⟨82, _⟩ => ⟨S1x64, .f32⟩
  | .hbm, ⟨83, _⟩ => ⟨S100000x64, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1, .i32⟩
  | .hbm, ⟨93, _⟩ => ⟨S_, .i32⟩
  | .hbm, ⟨94, _⟩ => ⟨S1600000x1, .i32⟩
  | .hbm, ⟨95, _⟩ => ⟨S1600000x1, .i1⟩
  | .hbm, ⟨96, _⟩ => ⟨S1x1, .i32⟩
  | .hbm, ⟨97, _⟩ => ⟨S1600000x1, .i32⟩
  | .hbm, ⟨98, _⟩ => ⟨S1600000x1, .i1⟩
  | .hbm, ⟨99, _⟩ => ⟨S1600000x1, .i1⟩
  | .hbm, ⟨100, _⟩ => ⟨S_, .i1⟩
  | .hbm, ⟨101, _⟩ => ⟨S1600000, .i1⟩
  | .hbm, ⟨102, _⟩ => ⟨S1600000x64, .f32⟩
  | .hbm, ⟨103, _⟩ => ⟨S1600000x64, .i1⟩
  | .hbm, ⟨104, _⟩ => ⟨S_, .f32⟩
  | .hbm, ⟨105, _⟩ => ⟨S1600000x64, .f32⟩
  | .hbm, ⟨106, _⟩ => ⟨S1600000x64, .f32⟩
  | .hbm, ⟨107, _⟩ => ⟨S_, .f32⟩
  | .hbm, ⟨108, _⟩ => ⟨S100000x64, .f32⟩
  | .hbm, ⟨109, _⟩ => ⟨S1600000x1, .i32⟩
  | .hbm, ⟨110, _⟩ => ⟨S100000x64, .f32⟩
  | .hbm, ⟨111, _⟩ => ⟨S1x64x64, .f32⟩
  | .hbm, ⟨112, _⟩ => ⟨S64x64, .f32⟩
  | .hbm, ⟨113, _⟩ => ⟨S1x64x64, .f32⟩
  | .hbm, ⟨114, _⟩ => ⟨S64x64, .f32⟩
  | .hbm, ⟨115, _⟩ => ⟨S1x64, .f32⟩
  | .hbm, ⟨116, _⟩ => ⟨S64, .f32⟩
  | .hbm, ⟨117, _⟩ => ⟨S1x64, .f32⟩
  | .hbm, ⟨118, _⟩ => ⟨S100000x64, .f32⟩
  | .hbm, ⟨119, _⟩ => ⟨S_, .f32⟩
  | .hbm, ⟨120, _⟩ => ⟨S512x64, .f32⟩
  | .hbm, ⟨121, _⟩ => ⟨S100000x1, .i32⟩
  | .hbm, ⟨122, _⟩ => ⟨S512x64, .f32⟩
  | .hbm, ⟨123, _⟩ => ⟨S1x128, .f32⟩
  | .hbm, ⟨124, _⟩ => ⟨S1x2, .f32⟩
  | .hbm, ⟨125, _⟩ => ⟨S512x2, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S64x64, .f32⟩
  | .local _ .vmem, ⟨24, _⟩ => ⟨S1x64, .f32⟩
  | .local _ .vmem, ⟨25, _⟩ => ⟨S10000x64, .f32⟩
  | .local _ .vmem, ⟨26, _⟩ => ⟨S10000x64, .f32⟩
  | .local _ .vmem, ⟨27, _⟩ => ⟨S512x64, .f32⟩
  | .local _ .vmem, ⟨28, _⟩ => ⟨S64x128, .f32⟩
  | .local _ .vmem, ⟨29, _⟩ => ⟨S1x128, .f32⟩
  | .local _ .vmem, ⟨30, _⟩ => ⟨S128x2, .f32⟩
  | .local _ .vmem, ⟨31, _⟩ => ⟨S1x2, .f32⟩
  | .local _ .vmem, ⟨32, _⟩ => ⟨S512x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v4 : Ref sig .tc := ⟨.hbm, 36, rfl⟩
abbrev main_cst : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v16 : Ref sig .tc := ⟨.hbm, 71, rfl⟩
abbrev main_cst_0 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_call2_c : Ref sig .tc := ⟨.hbm, 84, rfl⟩
abbrev main_call2_v0 : Ref sig .tc := ⟨.hbm, 85, rfl⟩
abbrev main_call2_v1 : Ref sig .tc := ⟨.hbm, 86, rfl⟩
abbrev main_call2_c_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_c_1 : Ref sig .tc := ⟨.hbm, 92, rfl⟩
abbrev main_call2_c_2 : Ref sig .tc := ⟨.hbm, 93, rfl⟩
abbrev main_call2_v6 : Ref sig .tc := ⟨.hbm, 94, rfl⟩
abbrev main_call2_v7 : Ref sig .tc := ⟨.hbm, 95, rfl⟩
abbrev main_call2_v8 : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_c_3 : Ref sig .tc := ⟨.hbm, 100, rfl⟩
abbrev main_call2_v12 : Ref sig .tc := ⟨.hbm, 101, rfl⟩
abbrev main_call2_v13 : Ref sig .tc := ⟨.hbm, 102, rfl⟩
abbrev main_call2_v14 : Ref sig .tc := ⟨.hbm, 103, rfl⟩
abbrev main_call2_cst : Ref sig .tc := ⟨.hbm, 104, rfl⟩
abbrev main_call2_v15 : Ref sig .tc := ⟨.hbm, 105, rfl⟩
abbrev main_v28 : Ref sig .tc := ⟨.hbm, 106, rfl⟩
abbrev main_cst_1 : Ref sig .tc := ⟨.hbm, 107, rfl⟩
abbrev main_v29 : Ref sig .tc := ⟨.hbm, 108, rfl⟩
abbrev main_v30 : Ref sig .tc := ⟨.hbm, 109, rfl⟩
abbrev main_v31 : Ref sig .tc := ⟨.hbm, 110, rfl⟩
abbrev main_v32 : Ref sig .tc := ⟨.hbm, 111, rfl⟩
abbrev main_v33 : Ref sig .tc := ⟨.hbm, 112, rfl⟩
abbrev main_v34 : Ref sig .tc := ⟨.hbm, 113, rfl⟩
abbrev main_v35 : Ref sig .tc := ⟨.hbm, 114, rfl⟩
abbrev main_v36 : Ref sig .tc := ⟨.hbm, 115, rfl⟩
abbrev main_v37 : Ref sig .tc := ⟨.hbm, 116, rfl⟩
abbrev main_v38 : Ref sig .tc := ⟨.hbm, 117, rfl⟩
abbrev main_v39 : Ref sig .tc := ⟨.hbm, 118, rfl⟩
abbrev main_cst_2 : Ref sig .tc := ⟨.hbm, 119, rfl⟩
abbrev main_v40 : Ref sig .tc := ⟨.hbm, 120, rfl⟩
abbrev main_v41 : Ref sig .tc := ⟨.hbm, 121, rfl⟩
abbrev main_v42 : Ref sig .tc := ⟨.hbm, 122, rfl⟩
abbrev main_v43 : Ref sig .tc := ⟨.hbm, 123, rfl⟩
abbrev main_v44 : Ref sig .tc := ⟨.hbm, 124, rfl⟩
abbrev main_v45 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x2 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S512x64 : S_.BroadcastsInDim S512x64 (![] : Fin 0 → Fin S512x64.rank)
  bcast_S100000_S100000x1_0 : S100000.BroadcastsInDim S100000x1 (![0] : Fin 1 → Fin S100000x1.rank)
  shapeCasts_S128_S1x128 : S128.ShapeCasts S1x128
  shapeCasts_S2_S1x2 : S2.ShapeCasts S1x2
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  scatter_S512x64_S100000x1_S100000x64_1_0_0_1_wf : ScatterDims.WF S512x64 S100000x1 S100000x64 [1] [0] [0] 1
  dot_S512x64_S64x128_S512x128_1_0_0_1_n_n_wf : DotDims.WF S512x64 S64x128 S512x128 [1] [0] [0] [1] [] []
  dot_S512x128_S128x2_S512x2_1_0_0_1_n_n_wf : DotDims.WF S512x128 S128x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x64.size a ≤ S512x64.size a
  hwx3_0 : ∀ i : grid3.Coords, EltTy.bits .f32 = 32 ∨ (Rect.block (s := S512x64) S512x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x128.size a ≤ S64x128.size a
  hwx3_1 : ∀ i : grid3.Coords, EltTy.bits .f32 = 32 ∨ (Rect.block (s := S64x128) S64x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x2.size a ≤ S128x2.size a
  hwx3_3 : ∀ i : grid3.Coords, EltTy.bits .f32 = 32 ∨ (Rect.block (s := S128x2) S128x2.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x2.size a ≤ S1x2.size a
  hwx3_4 : ∀ i : grid3.Coords, EltTy.bits .f32 = 32 ∨ (Rect.block (s := S1x2) S1x2.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x2.size a ≤ S512x2.size a
  hwx3_5 : ∀ i : grid3.Coords, EltTy.bits .f32 = 32 ∨ (Rect.block (s := S512x2) S512x2.size (cc3_transform_5 i) (hinb3_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

abbrev win0_0 : Pipeline.Window sig grid0 :=
  Pipeline.Window.ofSpec (Memref.whole main_v7) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v31) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v42) S512x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S128x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v44) S1x2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v45) S512x2.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S3x64x64 : Shape := ⟨3, ![3, 64, 64]⟩
abbrev S3x64 : Shape := ⟨2, ![3, 64]⟩
abbrev S64x128 : Shape := ⟨2, ![64, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S512x64 : Shape := ⟨2, ![512, 64]⟩
abbrev S100000x1 : Shape := ⟨2, ![100000, 1]⟩
abbrev S512x128 : Shape := ⟨2, ![512, 128]⟩
abbrev S1x128 : Shape := ⟨2, ![1, 128]⟩
abbrev S512x2 : Shape := ⟨2, ![512, 2]⟩
abbrev S1x2 : Shape := ⟨2, ![1, 2]⟩

abbrev nBuf : Space → Nat
  | .hbm => 121
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S3x64x64, .f32⟩
  | .hbm, ⟨4, _⟩ => ⟨S3x64x64, .f32⟩
  | .hbm, ⟨5, _⟩ => ⟨S3x64, .f32⟩
  | .hbm, ⟨6, _⟩ => ⟨S64x128, .f32⟩
  | .hbm, ⟨7, _⟩ => ⟨S128, .f32⟩
  | .hbm, ⟨8, _⟩ => ⟨S128x2, .f32⟩
  | .hbm, ⟨9, _⟩ => ⟨S2, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S1x64x64, .f32⟩
  | .hbm, ⟨28, _⟩ => ⟨S64x64, .f32⟩
  | .hbm, ⟨29, _⟩ => ⟨S100000x64, .f32⟩
  | .hbm, ⟨30, _⟩ => ⟨S1x64, .f32⟩
  | .hbm, ⟨31, _⟩ => ⟨S64, .f32⟩
  | .hbm, ⟨32, _⟩ => ⟨S1x64, .f32⟩
  | .hbm, ⟨33, _⟩ => ⟨S100000x64, .f32⟩
  | .hbm, ⟨34, _⟩ => ⟨S100000x64, .f32⟩
  | .hbm, ⟨35, _⟩ => ⟨S1x64x64, .f32⟩
  | .hbm, ⟨36, _⟩ => ⟨S64x64, .f32⟩
  | .hbm, ⟨37, _⟩ => ⟨S100000x64, .f32⟩
  | .hbm, ⟨38, _⟩ => ⟨S100000x64, .f32⟩
  | .hbm, ⟨39, _⟩ => ⟨S_, .f32⟩
  | .hbm, ⟨40, _⟩ => ⟨S100000x64, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S1x64x64, .f32⟩
  | .hbm, ⟨56, _⟩ => ⟨S64x64, .f32⟩
  | .hbm, ⟨57, _⟩ => ⟨S100000x64, .f32⟩
  | .hbm, ⟨58, _⟩ => ⟨S1x64, .f32⟩
  | .hbm, ⟨59, _⟩ => ⟨S64, .f32⟩
  | .hbm, ⟨60, _⟩ => ⟨S1x64, .f32⟩
  | .hbm, ⟨61, _⟩ => ⟨S100000x64, .f32⟩
  | .hbm, ⟨62, _⟩ => ⟨S100000x64, .f32⟩
  | .hbm, ⟨63, _⟩ => ⟨S1x64x64, .f32⟩
  | .hbm, ⟨64, _⟩ => ⟨S64x64, .f32⟩
  | .hbm, ⟨65, _⟩ => ⟨S100000x64, .f32⟩
  | .hbm, ⟨66, _⟩ => ⟨S100000x64, .f32⟩
  | .hbm, ⟨67, _⟩ => ⟨S_, .f32⟩
  | .hbm, ⟨68, _⟩ => ⟨S100000x64, .f32⟩
  | .hbm, ⟨69, _⟩ => ⟨S100000x64, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x64, .f32⟩
  | .hbm, ⟨79, _⟩ => ⟨S_, .f32⟩
  | .hbm, ⟨80, _⟩ => ⟨S100000x64, .f32⟩
  | .hbm, ⟨81, _⟩ => ⟨S1600000x1, .i32⟩
  | .hbm, ⟨82, _⟩ => ⟨S100000x64, .f32⟩
  | .hbm, ⟨83, _⟩ => ⟨S1x64x64, .f32⟩
  | .hbm, ⟨84, _⟩ => ⟨S64x64, .f32⟩
  | .hbm, ⟨85, _⟩ => ⟨S100000x64, .f32⟩
  | .hbm, ⟨86, _⟩ => ⟨S1x64, .f32⟩
  | .hbm, ⟨87, _⟩ => ⟨S64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S1x64x64, .f32⟩
  | .hbm, ⟨92, _⟩ => ⟨S64x64, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S100000x64, .f32⟩
  | .hbm, ⟨97, _⟩ => ⟨S100000x64, .f32⟩
  | .hbm, ⟨98, _⟩ => ⟨S_, .f32⟩
  | .hbm, ⟨99, _⟩ => ⟨S512x64, .f32⟩
  | .hbm, ⟨100, _⟩ => ⟨S100000x1, .i32⟩
  | .hbm, ⟨101, _⟩ => ⟨S512x64, .f32⟩
  | .hbm, ⟨102, _⟩ => ⟨S512x128, .f32⟩
  | .hbm, ⟨103, _⟩ => ⟨S1x128, .f32⟩
  | .hbm, ⟨104, _⟩ => ⟨S512x128, .f32⟩
  | .hbm, ⟨105, _⟩ => ⟨S512x128, .f32⟩
  | .hbm, ⟨106, _⟩ => ⟨S_, .f32⟩
  | .hbm, ⟨107, _⟩ => ⟨S512x128, .f32⟩
  | .hbm, ⟨108, _⟩ => ⟨S512x128, .f32⟩
  | .hbm, ⟨109, _⟩ => ⟨S512x2, .f32⟩
  | .hbm, ⟨110, _⟩ => ⟨S1x2, .f32⟩
  | .hbm, ⟨111, _⟩ => ⟨S512x2, .f32⟩
  | .hbm, ⟨112, _⟩ => ⟨S512x2, .f32⟩
  | .hbm, ⟨113, _⟩ => ⟨S512x2, .f32⟩
  | .hbm, ⟨114, _⟩ => ⟨S512x2, .f32⟩
  | .hbm, ⟨115, _⟩ => ⟨S_, .f32⟩
  | .hbm, ⟨116, _⟩ => ⟨S512x2, .f32⟩
  | .hbm, ⟨117, _⟩ => ⟨S512x2, .f32⟩
  | .hbm, ⟨118, _⟩ => ⟨S_, .f32⟩
  | .hbm, ⟨119, _⟩ => ⟨S512x2, .f32⟩
  | .hbm, ⟨120, _⟩ => ⟨S512x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call0_cst : Ref sig .tc := ⟨.hbm, 39, rfl⟩
abbrev main_call0_v0 : Ref sig .tc := ⟨.hbm, 40, rfl⟩
abbrev main_v26 : Ref sig .tc := ⟨.hbm, 41, rfl⟩
abbrev main_c_1 : Ref sig .tc := ⟨.hbm, 42, rfl⟩
abbrev main_v27 : Ref sig .tc := ⟨.hbm, 43, rfl⟩
abbrev main_v28 : Ref sig .tc := ⟨.hbm, 44, rfl⟩
abbrev main_c_2 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_cst : Ref sig .tc := ⟨.hbm, 67, rfl⟩
abbrev main_call1_v0 : Ref sig .tc := ⟨.hbm, 68, rfl⟩
abbrev main_v49 : Ref sig .tc := ⟨.hbm, 69, rfl⟩
abbrev main_c_4 : Ref sig .tc := ⟨.hbm, 70, rfl⟩
abbrev main_v50 : Ref sig .tc := ⟨.hbm, 71, rfl⟩
abbrev main_v51 : Ref sig .tc := ⟨.hbm, 72, rfl⟩
abbrev main_c_5 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_6 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_call2_cst : Ref sig .tc := ⟨.hbm, 95, rfl⟩
abbrev main_call2_v0 : Ref sig .tc := ⟨.hbm, 96, rfl⟩
abbrev main_v72 : Ref sig .tc := ⟨.hbm, 97, rfl⟩
abbrev main_cst_7 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_call3_cst : Ref sig .tc := ⟨.hbm, 106, rfl⟩
abbrev main_call3_v0 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_8 : Ref sig .tc := ⟨.hbm, 115, rfl⟩
abbrev main_v87 : Ref sig .tc := ⟨.hbm, 116, rfl⟩
abbrev main_v88 : Ref sig .tc := ⟨.hbm, 117, rfl⟩
abbrev main_cst_9 : Ref sig .tc := ⟨.hbm, 118, rfl⟩
abbrev main_v89 : Ref sig .tc := ⟨.hbm, 119, rfl⟩
abbrev main_v90 : Ref sig .tc := ⟨.hbm, 120, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S512x64 : S_.BroadcastsInDim S512x64 (![] : Fin 0 → Fin S512x64.rank)
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  bcast_S_S512x2 : S_.BroadcastsInDim S512x2 (![] : Fin 0 → Fin S512x2.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S512x64_S100000x1_S100000x64_1_0_0_1_wf : ScatterDims.WF S512x64 S100000x1 S100000x64 [1] [0] [0] 1
  dot_S512x64_S64x128_S512x128_1_0_0_1_n_n_wf : DotDims.WF S512x64 S64x128 S512x128 [1] [0] [0] [1] [] []
  dot_S512x128_S128x2_S512x2_1_0_0_1_n_n_wf : DotDims.WF S512x128 S128x2 S512x2 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

class Facts : Prop extends Facts₀ where

variable [Facts]
-- ==== Proof.Model.lean ====
/-
  The network both programs compute, named piece by piece over the extended reals.

  A graph of 100000 nodes with 64 features each and 1600000 directed edges (source row, destination row of the
  edge list). One layer sends every node's features along its out-edges, sums what arrives at each node
  (`agg`), and replaces the features `h` by `max (agg · W_rel + h · W_root + b, 0)`, row by row. After three
  layers the rows are summed per graph (512 graphs, a node's graph given by `batch`) and a two-layer perceptron
  with a logistic output reads the pooled rows.

  The host operations both programs share (the edge list's two rows, the wrap of negative source indices by the
  row count, the row gather, the two scatter sums, the slices of the stacked weights) are named here once, in
  the spelling both programs print; the node update and the readout are stated index by index as sums over the
  contraction coordinate.
-/
import proofs.«408034_j60224031425327_1_alg».proof.Proof.Gen.ReferenceIdeal
import Idealize.ShloMosaic.PureOps.Ideal.Laws
import Idealize.ShloMosaic.Lib.ValueIdx

noncomputable section

namespace Cert.Model

open Idealize.ShloMosaic Idealize.ShloMosaic.ValueIdx Cert.ReferenceIdeal Cert.ReferenceIdeal.Facts₀

/-! ## The edge list -/

/-- Row 0 of the edge list: each edge's source node. -/
def srcRow (e : IVec S2x1600000 32) : IVec S1600000 32 :=
  shapeCast S1600000 (extractStridedSlice S1x1600000 ![0, 0] e slices_S2x1600000_S1x1600000_0_0) shapeCasts_S1x1600000_S1600000

/-- Row 1 of the edge list: each edge's destination node. -/
def dstRow (e : IVec S2x1600000 32) : IVec S1600000 32 :=
  shapeCast S1600000 (extractStridedSlice S1x1600000 ![1, 0] e slices_S2x1600000_S1x1600000_1_0) shapeCasts_S1x1600000_S1600000

/-- The source indices with a negative one moved up by the row count, as a column of start indices. -/
def wrapCol (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- Edge `e`'s row is the node row at its (clamped) start index. -/
def rowsAt (h : FVec Ideal S100000x64 .f32) (w : IVec S1600000x1 32) : FVec Ideal S1600000x64 .f32 :=
  Host.gather gather_S100000x64_S1600000x1_S1600000x64_1_0_n_n_0_1_164 h w

/-- Each node's sum of the edge rows that arrive at it (an edge whose destination is no node is dropped). -/
def sumInto (d : IVec S1600000 32) (g : FVec Ideal S1600000x64 .f32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 d) g

/-- What a node receives: the sum over its in-edges of the source nodes' rows. -/
def aggregate (h : FVec Ideal S100000x64 .f32) (e : IVec S2x1600000 32) : FVec Ideal S100000x64 .f32 :=
  sumInto (dstRow e) (rowsAt h (wrapCol (srcRow e)))

/-- Each graph's sum of its nodes' rows. -/
def pool (b : IVec S100000 32) (h : FVec Ideal S100000x64 .f32) : FVec Ideal S512x64 .f32 :=
  Host.scatterAdd scatter_S512x64_S100000x1_S100000x64_1_0_0_1
    (broadcastInDim S512x64 ![] bcast_S_S512x64 (constant (F := Ideal) S_ .f32 0x00000000#32))
    (broadcastInDim S100000x1 ![0] bcast_S100000_S100000x1_0 b) h

/-! ## The stacked weights, one layer's at a time -/

/-- Matrix `i` of a stack of three 64 × 64 matrices. -/
def matAt (i : Nat) (hs : S3x64x64.Slices ![i, 0, 0] S1x64x64) (W : FVec Ideal S3x64x64 .f32) : FVec Ideal S64x64 .f32 :=
  shapeCast S64x64 (extractStridedSlice S1x64x64 ![i, 0, 0] W hs) shapeCasts_S1x64x64_S64x64

/-- Row `i` of a stack of three bias rows, as a vector. -/
def rowAt (i : Nat) (hs : S3x64.Slices ![i, 0] S1x64) (B : FVec Ideal S3x64 .f32) : FVec Ideal S64 .f32 :=
  shapeCast S64 (extractStridedSlice S1x64 ![i, 0] B hs) shapeCasts_S1x64_S64

/-! ## One layer, and the readout, index by index -/

/-- The node update on `R` rows: at (row `r`, feature `j`),
    `max ((∑ k, agg[r,k] · W_rel[k,j]) + (∑ k, h[r,k] · W_root[k,j]) + b[j], 0)`. -/
def layer {R : Nat} (agg h : (⟨2, ![R, 64]⟩ : Shape).Idx → EReal) (wrel wroot : (⟨2, ![64, 64]⟩ : Shape).Idx → EReal)
    (b : (⟨2, ![1, 64]⟩ : Shape).Idx → EReal) : (⟨2, ![R, 64]⟩ : Shape).Idx → EReal :=
  fun i => max (((∑ k : Fin 64, agg (ix2 (i 0) k) * wrel (ix2 k (i 1))) + ∑ k : Fin 64, h (ix2 (i 0) k) * wroot (ix2 k (i 1)))
    + b (ix2 (0 : Fin 1) (i 1))) 0

/-- The perceptron's hidden layer: at (graph `g`, unit `u`), `max ((∑ k, p[g,k] · W1[k,u]) + b1[u], 0)`. -/
def hidden (p : (⟨2, ![512, 64]⟩ : Shape).Idx → EReal) (w1 : (⟨2, ![64, 128]⟩ : Shape).Idx → EReal)
    (b1 : (⟨2, ![1, 128]⟩ : Shape).Idx → EReal) : (⟨2, ![512, 128]⟩ : Shape).Idx → EReal :=
  fun i => max ((∑ k : Fin 64, p (ix2 (i 0) k) * w1 (ix2 k (i 1))) + b1 (ix2 (0 : Fin 1) (i 1))) 0

/-- The readout: at (graph `g`, class `o`), the logistic of `(∑ k, hidden[g,k] · W2[k,o]) + b2[o]`. -/
def readout (p : (⟨2, ![512, 64]⟩ : Shape).Idx → EReal) (w1 : (⟨2, ![64, 128]⟩ : Shape).Idx → EReal)
    (b1 : (⟨2, ![1, 128]⟩ : Shape).Idx → EReal) (w2 : (⟨2, ![128, 2]⟩ : Shape).Idx → EReal)
    (b2 : (⟨2, ![1, 2]⟩ : Shape).Idx → EReal) : (⟨2, ![512, 2]⟩ : Shape).Idx → EReal :=
  fun i => Ideal.logistic ((∑ k : Fin 128, hidden p w1 b1 (ix2 (i 0) k) * w2 (ix2 k (i 1))) + b2 (ix2 (0 : Fin 1) (i 1)))

/-- A vector as a one-row matrix. -/
def asRow {n : Nat} (v : (⟨1, ![n]⟩ : Shape).Idx → EReal) : (⟨2, ![1, n]⟩ : Shape).Idx → EReal :=
  fun i => v (ix1 (i 1))

/-! ## The whole network -/

/-- The node features after one layer with the stack's matrices and bias row `i`. -/
def step (i : Nat) (hw : S3x64x64.Slices ![i, 0, 0] S1x64x64) (hb : S3x64.Slices ![i, 0] S1x64)
    (e : IVec S2x1600000 32) (Wrel Wroot : FVec Ideal S3x64x64 .f32) (B : FVec Ideal S3x64 .f32)
    (h : FVec Ideal S100000x64 .f32) : FVec Ideal S100000x64 .f32 :=
  layer (R := 100000) (aggregate h e) h (matAt i hw Wrel) (matAt i hw Wroot) (asRow (rowAt i hb B))

/-- The node features after the three layers. -/
def features (x : FVec Ideal S100000x64 .f32) (e : IVec S2x1600000 32) (Wrel Wroot : FVec Ideal S3x64x64 .f32)
    (B : FVec Ideal S3x64 .f32) : FVec Ideal S100000x64 .f32 :=
  step 2 slices_S3x64x64_S1x64x64_2_0_0 slices_S3x64_S1x64_2_0 e Wrel Wroot B
    (step 1 slices_S3x64x64_S1x64x64_1_0_0 slices_S3x64_S1x64_1_0 e Wrel Wroot B
      (step 0 slices_S3x64x64_S1x64x64_0_0_0 slices_S3x64_S1x64_0_0 e Wrel Wroot B x))

/-- The pooled rows: the second result. -/
def pooled (x : FVec Ideal S100000x64 .f32) (e : IVec S2x1600000 32) (bt : IVec S100000 32)
    (Wrel Wroot : FVec Ideal S3x64x64 .f32) (B : FVec Ideal S3x64 .f32) : FVec Ideal S512x64 .f32 :=
  pool bt (features x e Wrel Wroot B)

/-- The class scores: the first result. -/
def scores (x : FVec Ideal S100000x64 .f32) (e : IVec S2x1600000 32) (bt : IVec S100000 32)
    (Wrel Wroot : FVec Ideal S3x64x64 .f32) (B : FVec Ideal S3x64 .f32) (W1 : FVec Ideal S64x128 .f32)
    (b1 : FVec Ideal S128 .f32) (W2 : FVec Ideal S128x2 .f32) (b2 : FVec Ideal S2 .f32) : FVec Ideal S512x2 .f32 :=
  readout (pooled x e bt Wrel Wroot B) W1 (asRow b1) W2 (asRow b2)

end Cert.Model

end
-- ==== Proof.KModel.lean ====
/-
  The kernel program's own spelling of the row gather: `jnp.take` in fill mode. Each edge's start index (the source
  index, a negative one moved up by the row count) is tested against the rows' range `0 … 99999`; an edge in range
  takes the node row at its index, an edge out of range a row of the fill word.
-/
import proofs.«408034_j60224031425327_1_alg».proof.Proof.Gen.KernelIdeal
import proofs.«408034_j60224031425327_1_alg».proof.Proof.Model

noncomputable section

namespace Cert.KModel

open Idealize.ShloMosaic Cert.KernelIdeal Cert.KernelIdeal.Facts₀

/-- The start indices as a column: the source index, plus the row count where it is negative. -/
def startCol (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- Per edge: is its start index within `0 … 99999` (the conjunction over the column's one entry). -/
def inRange (w : IVec S1600000x1 32) : IVec S1600000 1 :=
  Host.reduce IntOp.andi
    (andi (cmpi .sge w (broadcastInDim S1600000x1 ![] bcast_S_S1600000x1 (constantI S_ 32 0#32)))
      (cmpi .sle w (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The gathered rows, an out-of-range edge's row replaced by the fill word. -/
def takeFill (h : FVec Ideal S100000x64 .f32) (s : IVec S1600000 32) : FVec Ideal S1600000x64 .f32 :=
  select (broadcastInDim S1600000x64 ![0] bcast_S1600000_S1600000x64_0 (inRange (startCol s)))
    (Host.gather gather_S100000x64_S1600000x1_S1600000x64_1_0_n_n_0_1_164 h (startCol s))
    (broadcastInDim S1600000x64 ![] bcast_S_S1600000x64 (constant (F := Ideal) S_ .f32 0x7FC00000#32))

/-- A bias vector laid out as one row, by a reshape. -/
def rowOf64 (v : FVec Ideal S64 .f32) : FVec Ideal S1x64 .f32 := shapeCast S1x64 v shapeCasts_S64_S1x64
def rowOf128 (v : FVec Ideal S128 .f32) : FVec Ideal S1x128 .f32 := shapeCast S1x128 v shapeCasts_S128_S1x128
def rowOf2 (v : FVec Ideal S2 .f32) : FVec Ideal S1x2 .f32 := shapeCast S1x2 v shapeCasts_S2_S1x2

end Cert.KModel

end
-- ==== Proof.Stretch.lean ====
/-
  The kernel program's host stretches, each read as the model's functions of the buffers it starts from: the edge
  list's two rows; per layer the fill-mode gather of the current node features, then the per-node sums of the
  gathered rows and that layer's slices of the stacked weights; last the per-graph sums and the two bias rows of the
  readout. A stretch leaves every buffer it does not write as it found it.
-/
import proofs.«408034_j60224031425327_1_alg».proof.Proof.Gen.KernelIdeal.Launch
import proofs.«408034_j60224031425327_1_alg».proof.Proof.KModel
import Idealize.ShloMosaic.Lib.StableHlo.Run

set_option maxRecDepth 16384

noncomputable section

namespace Cert.KernelIdeal.Stretch

open Cert.KernelIdeal Cert.KernelIdeal.Gen Idealize.ShloMosaic Idealize.ShloMosaic.TcCoe Idealize.SL.Sem
open Idealize.ShloMosaic.StableHlo

/-! ## Typed references: the transport along a buffer's type -/

/-- Reading a typed reference's buffer back at the value's type undoes writing it there. -/
private theorem ofBuf_toBuf {T : BufTy} (x : StableHlo.TRef sig T) (v : T.Contents (Elt Ideal)) :
    x.ofBuf (x.toBuf v) = v := by
  obtain ⟨r, h, _, _⟩ := x
  subst h
  rfl

/-- At a literal reference the buffer's type is the value's, and the transport is the identity. -/
private theorem ofBuf_main_v1 (v : (main_v1 : Ref sig .tc).ty.Contents (Elt Ideal)) :
    (StableHlo.TRef.of main_v1 : StableHlo.TRef sig ⟨S1600000, .i32⟩).ofBuf v = v := rfl
private theorem ofBuf_main_arg0 (v : (main_arg0 : Ref sig .tc).ty.Contents (Elt Ideal)) :
    (StableHlo.TRef.of main_arg0 : StableHlo.TRef sig ⟨S100000x64, .f32⟩).ofBuf v = v := rfl
private theorem ofBuf_main_v15 (v : (main_v15 : Ref sig .tc).ty.Contents (Elt Ideal)) :
    (StableHlo.TRef.of main_v15 : StableHlo.TRef sig ⟨S100000x64, .f32⟩).ofBuf v = v := rfl
private theorem ofBuf_main_v27 (v : (main_v27 : Ref sig .tc).ty.Contents (Elt Ideal)) :
    (StableHlo.TRef.of main_v27 : StableHlo.TRef sig ⟨S100000x64, .f32⟩).ofBuf v = v := rfl
private theorem toBuf_main_v4 (v : (⟨S1600000x64, .f32⟩ : BufTy).Contents (Elt Ideal)) :
    (StableHlo.TRef.of main_v4 : StableHlo.TRef sig ⟨S1600000x64, .f32⟩).toBuf v = v := rfl
private theorem toBuf_main_v16 (v : (⟨S1600000x64, .f32⟩ : BufTy).Contents (Elt Ideal)) :
    (StableHlo.TRef.of main_v16 : StableHlo.TRef sig ⟨S1600000x64, .f32⟩).toBuf v = v := rfl
private theorem toBuf_main_v28 (v : (⟨S1600000x64, .f32⟩ : BufTy).Contents (Elt Ideal)) :
    (StableHlo.TRef.of main_v28 : StableHlo.TRef sig ⟨S1600000x64, .f32⟩).toBuf v = v := rfl

/-! ## The edge list's rows -/

theorem src_hostOps0 (X : Valuation τ sig (Elt Ideal)) :
    StableHlo.after (hostOps0 (F := Ideal)) X (Proc.devRef .tc main_v1) = Cert.Model.srcRow (X (Proc.devRef .tc main_arg1)) := by
  unfold hostOps0
  after_results
  rfl
theorem dst_hostOps0 (X : Valuation τ sig (Elt Ideal)) :
    StableHlo.after (hostOps0 (F := Ideal)) X (Proc.devRef .tc main_v3) = Cert.Model.dstRow (X (Proc.devRef .tc main_arg1)) := by
  unfold hostOps0
  after_results
  rfl
/-- `hostOps0` leaves every buffer it does not write. -/
theorem keep_hostOps0 (X : Valuation τ sig (Elt Ideal)) (b : Ref sig .tc)
    (hb : b ∉ ([main_v0, main_v1, main_v2, main_v3] : List (Ref sig .tc))) :
    StableHlo.after (hostOps0 (F := Ideal)) X (Proc.devRef .tc b) = X (Proc.devRef .tc b) := by
  refine StableHlo.after_of_writes_sub (W := [main_v0, main_v1, main_v2, main_v3]) _ X ?_ hb
  simp only [hostOps0, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-! ## Layer 0 -/

/-- `hostOps0_1`: the fill-mode gather of the current features at the edges' source indices. -/
theorem take_hostOps0_1 (X : Valuation τ sig (Elt Ideal)) :
    StableHlo.after (hostOps0_1 (F := Ideal)) X (Proc.devRef .tc main_v4) = Cert.KModel.takeFill (X (Proc.devRef .tc main_arg0)) (X (Proc.devRef .tc main_v1)) := by
  unfold hostOps0_1
  after_results_simp
  simp only [ofBuf_toBuf, ofBuf_main_v1, ofBuf_main_arg0, toBuf_main_v4]
  rfl
/-- `hostOps0_1` leaves every buffer it does not write. -/
theorem keep_hostOps0_1 (X : Valuation τ sig (Elt Ideal)) (b : Ref sig .tc)
    (hb : b ∉ ([main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4] : List (Ref sig .tc))) :
    StableHlo.after (hostOps0_1 (F := Ideal)) X (Proc.devRef .tc b) = X (Proc.devRef .tc b) := by
  refine StableHlo.after_of_writes_sub (W := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4]) _ X ?_ hb
  simp only [hostOps0_1, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- `hostOps0_2`: the received sums, and layer 0's two matrices and bias row. -/
theorem agg_hostOps0_2 (X : Valuation τ sig (Elt Ideal)) :
    StableHlo.after (hostOps0_2 (F := Ideal)) X (Proc.devRef .tc main_v7) = Cert.Model.sumInto (X (Proc.devRef .tc main_v3)) (X (Proc.devRef .tc main_v4)) := by
  unfold hostOps0_2
  after_results
  rfl
theorem wrel_hostOps0_2 (X : Valuation τ sig (Elt Ideal)) :
    StableHlo.after (hostOps0_2 (F := Ideal)) X (Proc.devRef .tc main_v9) = Cert.Model.matAt 0 Gen.slices_S3x64x64_S1x64x64_0_0_0 (X (Proc.devRef .tc main_arg3)) := by
  unfold hostOps0_2
  after_results
  rfl
theorem wroot_hostOps0_2 (X : Valuation τ sig (Elt Ideal)) :
    StableHlo.after (hostOps0_2 (F := Ideal)) X (Proc.devRef .tc main_v11) = Cert.Model.matAt 0 Gen.slices_S3x64x64_S1x64x64_0_0_0 (X (Proc.devRef .tc main_arg4)) := by
  unfold hostOps0_2
  after_results
  rfl
theorem bias_hostOps0_2 (X : Valuation τ sig (Elt Ideal)) :
    StableHlo.after (hostOps0_2 (F := Ideal)) X (Proc.devRef .tc main_v14) = Cert.KModel.rowOf64 (Cert.Model.rowAt 0 Gen.slices_S3x64_S1x64_0_0 (X (Proc.devRef .tc main_arg5))) := by
  unfold hostOps0_2
  after_results
  rfl
/-- `hostOps0_2` leaves every buffer it does not write. -/
theorem keep_hostOps0_2 (X : Valuation τ sig (Elt Ideal)) (b : Ref sig .tc)
    (hb : b ∉ ([main_cst, main_v5, main_v6, main_v7, main_v8, main_v9, main_v10, main_v11, main_v12, main_v13, main_v14] : List (Ref sig .tc))) :
    StableHlo.after (hostOps0_2 (F := Ideal)) X (Proc.devRef .tc b) = X (Proc.devRef .tc b) := by
  refine StableHlo.after_of_writes_sub (W := [main_cst, main_v5, main_v6, main_v7, main_v8, main_v9, main_v10, main_v11, main_v12, main_v13, main_v14]) _ X ?_ hb
  simp only [hostOps0_2, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-! ## Layer 1 -/

/-- `hostOps1`: the fill-mode gather of the current features at the edges' source indices. -/
theorem take_hostOps1 (X : Valuation τ sig (Elt Ideal)) :
    StableHlo.after (hostOps1 (F := Ideal)) X (Proc.devRef .tc main_v16) = Cert.KModel.takeFill (X (Proc.devRef .tc main_v15)) (X (Proc.devRef .tc main_v1)) := by
  unfold hostOps1
  after_results_simp
  simp only [ofBuf_toBuf, ofBuf_main_v1, ofBuf_main_v15, toBuf_main_v16]
  rfl
/-- `hostOps1` leaves every buffer it does not write. -/
theorem keep_hostOps1 (X : Valuation τ sig (Elt Ideal)) (b : Ref sig .tc)
    (hb : b ∉ ([main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v16] : List (Ref sig .tc))) :
    StableHlo.after (hostOps1 (F := Ideal)) X (Proc.devRef .tc b) = X (Proc.devRef .tc b) := by
  refine StableHlo.after_of_writes_sub (W := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v16]) _ X ?_ hb
  simp only [hostOps1, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- `hostOps1_1`: the received sums, and layer 1's two matrices and bias row. -/
theorem agg_hostOps1_1 (X : Valuation τ sig (Elt Ideal)) :
    StableHlo.after (hostOps1_1 (F := Ideal)) X (Proc.devRef .tc main_v19) = Cert.Model.sumInto (X (Proc.devRef .tc main_v3)) (X (Proc.devRef .tc main_v16)) := by
  unfold hostOps1_1
  after_results
  rfl
theorem wrel_hostOps1_1 (X : Valuation τ sig (Elt Ideal)) :
    StableHlo.after (hostOps1_1 (F := Ideal)) X (Proc.devRef .tc main_v21) = Cert.Model.matAt 1 Gen.slices_S3x64x64_S1x64x64_1_0_0 (X (Proc.devRef .tc main_arg3)) := by
  unfold hostOps1_1
  after_results
  rfl
theorem wroot_hostOps1_1 (X : Valuation τ sig (Elt Ideal)) :
    StableHlo.after (hostOps1_1 (F := Ideal)) X (Proc.devRef .tc main_v23) = Cert.Model.matAt 1 Gen.slices_S3x64x64_S1x64x64_1_0_0 (X (Proc.devRef .tc main_arg4)) := by
  unfold hostOps1_1
  after_results
  rfl
theorem bias_hostOps1_1 (X : Valuation τ sig (Elt Ideal)) :
    StableHlo.after (hostOps1_1 (F := Ideal)) X (Proc.devRef .tc main_v26) = Cert.KModel.rowOf64 (Cert.Model.rowAt 1 Gen.slices_S3x64_S1x64_1_0 (X (Proc.devRef .tc main_arg5))) := by
  unfold hostOps1_1
  after_results
  rfl
/-- `hostOps1_1` leaves every buffer it does not write. -/
theorem keep_hostOps1_1 (X : Valuation τ sig (Elt Ideal)) (b : Ref sig .tc)
    (hb : b ∉ ([main_cst_0, main_v17, main_v18, main_v19, main_v20, main_v21, main_v22, main_v23, main_v24, main_v25, main_v26] : List (Ref sig .tc))) :
    StableHlo.after (hostOps1_1 (F := Ideal)) X (Proc.devRef .tc b) = X (Proc.devRef .tc b) := by
  refine StableHlo.after_of_writes_sub (W := [main_cst_0, main_v17, main_v18, main_v19, main_v20, main_v21, main_v22, main_v23, main_v24, main_v25, main_v26]) _ X ?_ hb
  simp only [hostOps1_1, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-! ## Layer 2 -/

/-- `hostOps2`: the fill-mode gather of the current features at the edges' source indices. -/
theorem take_hostOps2 (X : Valuation τ sig (Elt Ideal)) :
    StableHlo.after (hostOps2 (F := Ideal)) X (Proc.devRef .tc main_v28) = Cert.KModel.takeFill (X (Proc.devRef .tc main_v27)) (X (Proc.devRef .tc main_v1)) := by
  unfold hostOps2
  after_results_simp
  simp only [ofBuf_toBuf, ofBuf_main_v1, ofBuf_main_v27, toBuf_main_v28]
  rfl
/-- `hostOps2` leaves every buffer it does not write. -/
theorem keep_hostOps2 (X : Valuation τ sig (Elt Ideal)) (b : Ref sig .tc)
    (hb : b ∉ ([main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v28] : List (Ref sig .tc))) :
    StableHlo.after (hostOps2 (F := Ideal)) X (Proc.devRef .tc b) = X (Proc.devRef .tc b) := by
  refine StableHlo.after_of_writes_sub (W := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v28]) _ X ?_ hb
  simp only [hostOps2, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- `hostOps2_1`: the received sums, and layer 2's two matrices and bias row. -/
theorem agg_hostOps2_1 (X : Valuation τ sig (Elt Ideal)) :
    StableHlo.after (hostOps2_1 (F := Ideal)) X (Proc.devRef .tc main_v31) = Cert.Model.sumInto (X (Proc.devRef .tc main_v3)) (X (Proc.devRef .tc main_v28)) := by
  unfold hostOps2_1
  after_results
  rfl
theorem wrel_hostOps2_1 (X : Valuation τ sig (Elt Ideal)) :
    StableHlo.after (hostOps2_1 (F := Ideal)) X (Proc.devRef .tc main_v33) = Cert.Model.matAt 2 Gen.slices_S3x64x64_S1x64x64_2_0_0 (X (Proc.devRef .tc main_arg3)) := by
  unfold hostOps2_1
  after_results
  rfl
theorem wroot_hostOps2_1 (X : Valuation τ sig (Elt Ideal)) :
    StableHlo.after (hostOps2_1 (F := Ideal)) X (Proc.devRef .tc main_v35) = Cert.Model.matAt 2 Gen.slices_S3x64x64_S1x64x64_2_0_0 (X (Proc.devRef .tc main_arg4)) := by
  unfold hostOps2_1
  after_results
  rfl
theorem bias_hostOps2_1 (X : Valuation τ sig (Elt Ideal)) :
    StableHlo.after (hostOps2_1 (F := Ideal)) X (Proc.devRef .tc main_v38) = Cert.KModel.rowOf64 (Cert.Model.rowAt 2 Gen.slices_S3x64_S1x64_2_0 (X (Proc.devRef .tc main_arg5))) := by
  unfold hostOps2_1
  after_results
  rfl
/-- `hostOps2_1` leaves every buffer it does not write. -/
theorem keep_hostOps2_1 (X : Valuation τ sig (Elt Ideal)) (b : Ref sig .tc)
    (hb : b ∉ ([main_cst_1, main_v29, main_v30, main_v31, main_v32, main_v33, main_v34, main_v35, main_v36, main_v37, main_v38] : List (Ref sig .tc))) :
    StableHlo.after (hostOps2_1 (F := Ideal)) X (Proc.devRef .tc b) = X (Proc.devRef .tc b) := by
  refine StableHlo.after_of_writes_sub (W := [main_cst_1, main_v29, main_v30, main_v31, main_v32, main_v33, main_v34, main_v35, main_v36, main_v37, main_v38]) _ X ?_ hb
  simp only [hostOps2_1, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-! ## The pooling and the readout's bias rows -/

theorem pool_hostOps3 (X : Valuation τ sig (Elt Ideal)) :
    StableHlo.after (hostOps3 (F := Ideal)) X (Proc.devRef .tc main_v42) = Cert.Model.pool (X (Proc.devRef .tc main_arg2)) (X (Proc.devRef .tc main_v39)) := by
  unfold hostOps3
  after_results
  rfl
theorem b1_hostOps3 (X : Valuation τ sig (Elt Ideal)) :
    StableHlo.after (hostOps3 (F := Ideal)) X (Proc.devRef .tc main_v43) = Cert.KModel.rowOf128 (X (Proc.devRef .tc main_arg7)) := by
  unfold hostOps3
  after_results
  rfl
theorem b2_hostOps3 (X : Valuation τ sig (Elt Ideal)) :
    StableHlo.after (hostOps3 (F := Ideal)) X (Proc.devRef .tc main_v44) = Cert.KModel.rowOf2 (X (Proc.devRef .tc main_arg9)) := by
  unfold hostOps3
  after_results
  rfl
/-- `hostOps3` leaves every buffer it does not write. -/
theorem keep_hostOps3 (X : Valuation τ sig (Elt Ideal)) (b : Ref sig .tc)
    (hb : b ∉ ([main_cst_2, main_v40, main_v41, main_v42, main_v43, main_v44] : List (Ref sig .tc))) :
    StableHlo.after (hostOps3 (F := Ideal)) X (Proc.devRef .tc b) = X (Proc.devRef .tc b) := by
  refine StableHlo.after_of_writes_sub (W := [main_cst_2, main_v40, main_v41, main_v42, main_v43, main_v44]) _ X ?_ hb
  simp only [hostOps3, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

end Cert.KernelIdeal.Stretch

end
-- ==== Proof.Domain.lean ====
/-
  The precondition's index range, and what it buys: every source index of the edge list is a node's row number,
  `0 ≤ src < 100000`, so no index is wrapped, every start index passes the kernel's range test, and the kernel's
  fill-mode gather takes exactly the rows the plain gather takes.
-/
import proofs.«408034_j60224031425327_1_alg».proof.Defs
import proofs.«408034_j60224031425327_1_alg».proof.Proof.Gen.Pre_finite_inputs
import proofs.«408034_j60224031425327_1_alg».proof.Proof.KModel
import Idealize.ShloMosaic.Lib.ReduceAll
import Idealize.ShloMosaic.Lib.StableHlo.Predicate
import Idealize.ShloMosaic.Lib.ValueIdx

noncomputable section

namespace Cert.Domain

open Idealize.ShloMosaic Idealize.ShloMosaic.ValueIdx Idealize.SL.Sem

/-- The scalar shape has one index. -/
private instance scalarIdx_subsingleton : Subsingleton Cert.Pre_finite_inputs.S_.Idx :=
  ⟨fun _ _ => funext fun d => d.elim0⟩

private theorem toInt_zero : (0#32 : BitVec 32).toInt = 0 := by decide
private theorem toInt_rows : (100000#32 : BitVec 32).toInt = 100000 := by decide
private theorem toInt_last : (99999#32 : BitVec 32).toInt = 99999 := by decide

/-- Under the precondition every source index of the edge list lies in `0 … 99999` (read as a signed word). -/
theorem src_range (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S1600000.Idx) :
    0 ≤ (Cert.Model.srcRow (m ((c.tc : Thread Cert.KernelIdeal.nD Cert.KernelIdeal.τ).loc Cert.KernelIdeal.main_arg1)) i).toInt
    ∧ (Cert.Model.srcRow (m ((c.tc : Thread Cert.KernelIdeal.nD Cert.KernelIdeal.τ).loc Cert.KernelIdeal.main_arg1)) i).toInt < 100000 := by
  -- the precondition at the device, read at the scalar result's one index
  have h0 := congrFun (hpre c) ValueIdx.ix0
  unfold Cert.Pre_finite_inputs.fn Cert.Pre_finite_inputs.fn_part1 Cert.Pre_finite_inputs.fn_part2 at h0
  dsimp only at h0
  -- the conjunction's last two conjuncts: every source index ≥ 0, every source index < 100000
  obtain ⟨h1, hlt⟩ := IntOp.andi_eq_one.1 h0
  obtain ⟨-, hge⟩ := IntOp.andi_eq_one.1 h1
  -- each holds at every index, and the row of the edge list it tests is the source row
  have ege := Host.reduce_andi_all _ _ _ _ _ hge i
  have elt := Host.reduce_andi_all _ _ _ _ _ hlt i
  have gge : (0#32 : BitVec 32).toInt
      ≤ (Cert.Model.srcRow (m ((c.tc : Thread Cert.KernelIdeal.nD Cert.KernelIdeal.τ).loc Cert.KernelIdeal.main_arg1)) i).toInt :=
    IntOp.cmpi_sge.1 ege
  have glt : (Cert.Model.srcRow (m ((c.tc : Thread Cert.KernelIdeal.nD Cert.KernelIdeal.τ).loc Cert.KernelIdeal.main_arg1)) i).toInt
      < (100000#32 : BitVec 32).toInt :=
    IntOp.cmpi_slt.1 elt
  rw [toInt_zero] at gge
  rw [toInt_rows] at glt
  exact ⟨gge, glt⟩

/-- The kernel's start column and the reference's wrapped column are one term. -/
private theorem startCol_eq (s : IVec Cert.KernelIdeal.S1600000 32) : Cert.KModel.startCol s = Cert.Model.wrapCol s := rfl

/-- A left fold by `and` from 1 over words that are all 1 is 1. -/
private theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-- A nonnegative source index is not wrapped: the select keeps it. -/
private theorem wrap_id (s : IVec Cert.KernelIdeal.S1600000 32)
    (hs : ∀ i : Cert.KernelIdeal.S1600000.Idx, 0 ≤ (s i).toInt ∧ (s i).toInt < 100000)
    (c0 c1 : IVec Cert.KernelIdeal.S1600000 32) (hc0 : ∀ k, c0 k = 0#32) :
    select (cmpi .slt s c0) (addi s c1) s = s := by
  funext k
  rw [select_apply]
  refine if_neg fun hneg => ?_
  have hlt : (s k).toInt < (c0 k).toInt := IntOp.cmpi_slt.1 hneg
  rw [hc0, toInt_zero] at hlt
  have := (hs k).1
  omega

/-- A word in `0 … 99999` passes the range test `0 ≤ w ∧ w ≤ 99999`. -/
private theorem word_inRange (w : BitVec 32) (h0 : 0 ≤ w.toInt) (h1 : w.toInt < 100000) :
    IntOp.andi (IntOp.cmpi .sge w 0#32) (IntOp.cmpi .sle w 99999#32) = 1#1 := by
  refine IntOp.andi_eq_one.2 ⟨IntOp.cmpi_sge.2 ?_, IntOp.cmpi_sle.2 ?_⟩
  · rw [toInt_zero]; exact h0
  · rw [toInt_last]; omega

/-- Every edge's start index passes the kernel's range test. -/
private theorem inRange_one (s : IVec Cert.KernelIdeal.S1600000 32)
    (hs : ∀ i : Cert.KernelIdeal.S1600000.Idx, 0 ≤ (s i).toInt ∧ (s i).toInt < 100000) (e : Cert.KernelIdeal.S1600000.Idx) :
    Cert.KModel.inRange (Cert.KModel.startCol s) e = 1#1 := by
  unfold Cert.KModel.inRange Cert.KModel.startCol
  rw [wrap_id s hs]
  · rw [Host.reduce_eq_foldl]
    -- the conjunction over the column's entries that reduce into e: each entry is a source index in range
    refine foldl_andi_one _ _ fun i _ => ?_
    show IntOp.andi (IntOp.cmpi .sge (s _) 0#32) (IntOp.cmpi .sle (s _) 99999#32) = 1#1
    exact word_inRange _ (hs _).1 (hs _).2
  · intro k; rfl

/-- Source indices in range: the fill-mode gather is the plain gather at the same start column. -/
theorem takeFill_eq (h : FVec Ideal Cert.KernelIdeal.S100000x64 .f32) (s : IVec Cert.KernelIdeal.S1600000 32)
    (hs : ∀ i : Cert.KernelIdeal.S1600000.Idx, 0 ≤ (s i).toInt ∧ (s i).toInt < 100000) :
    Cert.KModel.takeFill h s = Cert.Model.rowsAt h (Cert.Model.wrapCol s) := by
  rw [← startCol_eq]
  unfold Cert.KModel.takeFill
  funext j
  -- the select's condition at (edge, feature) is the edge's range test, which holds
  rw [select_apply]
  show Scalar.select (Cert.KModel.inRange (Cert.KModel.startCol s) _) _ _ = _
  rw [inRange_one s hs, select_one]
  -- the two programs' gather records have the same fields
  rfl

end Cert.Domain

end
-- ==== Proof.LibPlainDot.lean ====
/-
  A plain two-dimensional product, rows by contraction times contraction by columns, read at an output index
  over the extended reals: the sum over the contraction index of the operands' products is the sum over the
  contraction COORDINATE `k : Fin K` of the left operand at `(row, k)` times the right operand at `(k, column)`.
  The same reading serves a kernel's block product into a zero accumulator and a host product: both are this sum.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis. -/
theorem contr_rank : (DotDims.plain M K N).contr.rank = 1 := rfl

/-- Its extent is the shared dimension. -/
theorem contr_size : (DotDims.plain M K N).contr.size ⟨0, by rw [contr_rank]; exact Nat.one_pos⟩ = K := rfl

/-- The contraction index as its one coordinate. -/
abbrev kEquiv : (DotDims.plain M K N).contr.Idx ≃ Fin K :=
  contrEquiv1 (DotDims.plain M K N) K (contr_rank M K N) (contr_size M K N)

/-- The left operand is read at (row of the output index, contraction coordinate). -/
theorem lhsIdx_eq (j : (⟨2, ![M, N]⟩ : Shape).Idx) (k : Fin K) :
    (DotDims.plain M K N).lhsIdx j ((kEquiv M K N).symm k) = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand is read at (contraction coordinate, column of the output index). -/
theorem rhsIdx_eq (j : (⟨2, ![M, N]⟩ : Shape).Idx) (k : Fin K) :
    (DotDims.plain M K N).rhsIdx j ((kEquiv M K N).symm k) = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The contraction's sum, coordinate by coordinate. -/
theorem sum_eq (lhs : (⟨2, ![M, K]⟩ : Shape).Idx → EReal) (rhs : (⟨2, ![K, N]⟩ : Shape).Idx → EReal)
    (j : (⟨2, ![M, N]⟩ : Shape).Idx) :
    ∑ q : (DotDims.plain M K N).contr.Idx, lhs ((DotDims.plain M K N).lhsIdx j q) * rhs ((DotDims.plain M K N).rhsIdx j q)
      = ∑ k : Fin K, lhs (ix2 (j 0) k) * rhs (ix2 k (j 1)) := by
  rw [← Equiv.sum_comp (kEquiv M K N).symm]
  refine Finset.sum_congr rfl fun k _ => ?_
  exact congrArg₂ (· * ·) (congrArg lhs (lhsIdx_eq M K N j k)) (congrArg rhs (rhsIdx_eq M K N j k))

/-- A block product into the zero accumulator, at an index: the row-by-column sum. -/
theorem matmul_zero_apply {φ₁ φ₂ : FTy} (prec : Option ContractPrecision)
    (lhs : FVec Ideal ⟨2, ![M, K]⟩ φ₁) (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 (j 0) k) * rhs (ix2 k (j 1)) := by
  rw [Ideal.matmul_constant_zero_apply]
  exact sum_eq M K N lhs rhs j

/-- A host product at an index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 (j 0) k) * rhs (ix2 k (j 1)) := by
  rw [Ideal.dotGeneral_apply]
  exact sum_eq M K N lhs rhs j

end Cert.LibPlainDot

end
-- ==== Proof.RefOps.lean ====
/-
  The reference program's host expressions read as the model's functions: a layer's
  `max ((agg · W_rel + b) + h · W_root, 0)` is the model's update (the bias added before or after the second product is
  one sum: addition of extended reals is commutative and associative), the perceptron with `1 / (1 + e^(-x))` is the
  model's readout, and a bias vector laid out as one row is the same row whether by a reshape or by a broadcast.
-/
import proofs.«408034_j60224031425327_1_alg».proof.Proof.Model
import proofs.«408034_j60224031425327_1_alg».proof.Proof.KModel
import proofs.«408034_j60224031425327_1_alg».proof.Proof.LibPlainDot
import Idealize.ShloMosaic.Lib.Pipeline.Value
import Idealize.ShloMosaic.Lib.ValueLayout

noncomputable section

namespace Cert.RefOps

open Idealize.ShloMosaic Idealize.ShloMosaic.ValueIdx Cert.ReferenceIdeal Cert.ReferenceIdeal.Facts₀

/-! ## Each operation read at an index -/

/-- A scalar constant broadcast to any shape reads, everywhere, the extended real its word encodes. -/
private theorem splat_apply {T : Shape} (h : (⟨0, ![]⟩ : Shape).BroadcastsInDim T ![]) (w : BitVec 32) (j : T.Idx) :
    broadcastInDim T ![] h (constant (F := Ideal) ⟨0, ![]⟩ .f32 w) j = Ideal.ofBits .f32 w :=
  broadcastInDim_apply ![] h _ j ix0 fun a => a.elim0

/-- A vector laid out as one row and that row repeated down `m` rows reads, at (p, q), the vector at `q`: the model's
    one-row matrix at (0, q). -/
private theorem bias_apply {m n : Nat} (h₁ : (⟨1, ![n]⟩ : Shape).BroadcastsInDim ⟨2, ![1, n]⟩ ![1])
    (h₂ : (⟨2, ![1, n]⟩ : Shape).BroadcastsInDim ⟨2, ![m, n]⟩ ![0, 1]) (b : (⟨1, ![n]⟩ : Shape).Idx → EReal)
    (p : Fin m) (q : Fin n) :
    broadcastInDim ⟨2, ![m, n]⟩ ![0, 1] h₂ (broadcastInDim ⟨2, ![1, n]⟩ ![1] h₁ b) (ix2 p q)
      = Cert.Model.asRow b (ix2 (0 : Fin 1) q) := by
  have e1 : broadcastInDim ⟨2, ![m, n]⟩ ![0, 1] h₂ (broadcastInDim ⟨2, ![1, n]⟩ ![1] h₁ b) (ix2 p q)
      = broadcastInDim ⟨2, ![1, n]⟩ ![1] h₁ b (ix2 (0 : Fin 1) q) := by
    refine broadcastInDim_apply ![0, 1] h₂ _ (ix2 p q) (ix2 (0 : Fin 1) q) fun a => ?_
    match a with
    | ⟨0, _⟩ => rfl
    | ⟨1, _⟩ =>
      show q.val = if n = 1 then 0 else q.val
      split
      · have := q.isLt; omega
      · rfl
  have e2 : broadcastInDim ⟨2, ![1, n]⟩ ![1] h₁ b (ix2 (0 : Fin 1) q) = b (ix1 q) := by
    refine broadcastInDim_apply ![1] h₁ b (ix2 (0 : Fin 1) q) (ix1 q) fun a => ?_
    match a with
    | ⟨0, _⟩ =>
      show q.val = if n = 1 then 0 else q.val
      split
      · have := q.isLt; omega
      · rfl
  exact e1.trans e2

/-- The layer's product at (p, q): row `p` of the left operand against column `q` of the right. -/
private theorem dot_layer_apply (l : FVec Ideal S100000x64 .f32) (r : FVec Ideal S64x64 .f32) (p : Fin 100000) (q : Fin 64) :
    Host.dotGeneral dot_S100000x64_S64x64_S100000x64_1_0_0_1_n_n none l r (ix2 p q)
      = ∑ k : Fin 64, l (ix2 p k) * r (ix2 k q) :=
  Cert.LibPlainDot.dotGeneral_apply 100000 64 64 none .single l r (ix2 p q)

/-- The perceptron's first product at (p, q). -/
private theorem dot_hidden_apply (l : FVec Ideal S512x64 .f32) (r : FVec Ideal S64x128 .f32) (p : Fin 512) (q : Fin 128) :
    Host.dotGeneral dot_S512x64_S64x128_S512x128_1_0_0_1_n_n none l r (ix2 p q)
      = ∑ k : Fin 64, l (ix2 p k) * r (ix2 k q) :=
  Cert.LibPlainDot.dotGeneral_apply 512 64 128 none .single l r (ix2 p q)

/-- The perceptron's second product at (p, q). -/
private theorem dot_out_apply (l : FVec Ideal S512x128 .f32) (r : FVec Ideal S128x2 .f32) (p : Fin 512) (q : Fin 2) :
    Host.dotGeneral dot_S512x128_S128x2_S512x2_1_0_0_1_n_n none l r (ix2 p q)
      = ∑ k : Fin 128, l (ix2 p k) * r (ix2 k q) :=
  Cert.LibPlainDot.dotGeneral_apply 512 128 2 none .single l r (ix2 p q)

/-- The host's quotient, exponential and negation at an index are the extended reals'. -/
private theorem hostDivf_apply {s : Shape} (a b : FVec Ideal s .f32) (i : s.Idx) :
    Host.divf a b i = Ideal.div (a i) (b i) := rfl
private theorem hostExp_apply {s : Shape} (a : FVec Ideal s .f32) (i : s.Idx) : Host.exp a i = Ideal.exp (a i) := rfl
private theorem hostNegf_apply {s : Shape} (a : FVec Ideal s .f32) (i : s.Idx) : Host.negf a i = -(a i) := rfl

/-- The word `0x3F800000` is the extended real one. -/
private theorem ofBits_one : Ideal.ofBits .f32 0x3F800000#32 = 1 := IdealRules.sign_bit.ideal_onePat .f32

/-- The perceptron's hidden layer as the reference spells it. -/
private theorem hidden_eq (P : FVec Ideal S512x64 .f32) (W1 : FVec Ideal S64x128 .f32) (b1 : FVec Ideal S128 .f32) :
    maximumf (addf (Host.dotGeneral dot_S512x64_S64x128_S512x128_1_0_0_1_n_n none P W1)
        (broadcastInDim S512x128 ![0, 1] bcast_S1x128_S512x128_0_1 (broadcastInDim S1x128 ![1] bcast_S128_S1x128_1 b1)))
      (broadcastInDim S512x128 ![] bcast_S_S512x128 (constant (F := Ideal) S_ .f32 0x00000000#32))
    = Cert.Model.hidden P W1 (Cert.Model.asRow b1) := by
  funext i
  obtain ⟨p, q, rfl⟩ : ∃ (p : Fin 512) (q : Fin 128), i = ix2 p q := ⟨i 0, i 1, eq_ix2 i⟩
  rw [maximumf_apply, addf_apply, dot_hidden_apply, bias_apply, splat_apply, Ideal.ofBits_zero_f32]
  rfl

/-- One layer as the reference spells it. -/
theorem layer_eq (A H : FVec Ideal S100000x64 .f32) (W W' : FVec Ideal S64x64 .f32) (b : FVec Ideal S64 .f32) :
    maximumf (addf (addf (Host.dotGeneral dot_S100000x64_S64x64_S100000x64_1_0_0_1_n_n none A W)
        (broadcastInDim S100000x64 ![0, 1] bcast_S1x64_S100000x64_0_1 (broadcastInDim S1x64 ![1] bcast_S64_S1x64_1 b)))
        (Host.dotGeneral dot_S100000x64_S64x64_S100000x64_1_0_0_1_n_n none H W'))
      (broadcastInDim S100000x64 ![] bcast_S_S100000x64 (constant (F := Ideal) S_ .f32 0x00000000#32))
    = Cert.Model.layer (R := 100000) A H W W' (Cert.Model.asRow b) := by
  funext i
  obtain ⟨p, q, rfl⟩ : ∃ (p : Fin 100000) (q : Fin 64), i = ix2 p q := ⟨i 0, i 1, eq_ix2 i⟩
  rw [maximumf_apply, addf_apply, addf_apply, dot_layer_apply, dot_layer_apply, bias_apply, splat_apply,
    Ideal.ofBits_zero_f32, add_right_comm (∑ k : Fin 64, A (ix2 p k) * W (ix2 k q))]
  rfl

/-- The perceptron and the logistic output as the reference spells them. -/
theorem readout_eq (P : FVec Ideal S512x64 .f32) (W1 : FVec Ideal S64x128 .f32) (b1 : FVec Ideal S128 .f32)
    (W2 : FVec Ideal S128x2 .f32) (b2 : FVec Ideal S2 .f32) :
    Host.divf (broadcastInDim S512x2 ![] bcast_S_S512x2 (constant (F := Ideal) S_ .f32 0x3F800000#32))
      (addf (broadcastInDim S512x2 ![] bcast_S_S512x2 (constant (F := Ideal) S_ .f32 0x3F800000#32))
        (Host.exp (Host.negf (addf (Host.dotGeneral dot_S512x128_S128x2_S512x2_1_0_0_1_n_n none
          (maximumf (addf (Host.dotGeneral dot_S512x64_S64x128_S512x128_1_0_0_1_n_n none P W1)
              (broadcastInDim S512x128 ![0, 1] bcast_S1x128_S512x128_0_1 (broadcastInDim S1x128 ![1] bcast_S128_S1x128_1 b1)))
            (broadcastInDim S512x128 ![] bcast_S_S512x128 (constant (F := Ideal) S_ .f32 0x00000000#32))) W2)
          (broadcastInDim S512x2 ![0, 1] bcast_S1x2_S512x2_0_1 (broadcastInDim S1x2 ![1] bcast_S2_S1x2_1 b2))))))
    = Cert.Model.readout P W1 (Cert.Model.asRow b1) W2 (Cert.Model.asRow b2) := by
  rw [hidden_eq]
  funext i
  obtain ⟨p, q, rfl⟩ : ∃ (p : Fin 512) (q : Fin 2), i = ix2 p q := ⟨i 0, i 1, eq_ix2 i⟩
  rw [hostDivf_apply, addf_apply, hostExp_apply, hostNegf_apply, addf_apply, dot_out_apply, bias_apply, splat_apply,
    ofBits_one]
  rfl

/-- A vector reshaped to one row is that row. -/
theorem rowOf64_eq (v : FVec Ideal Cert.KernelIdeal.S64 .f32) : Cert.KModel.rowOf64 v = Cert.Model.asRow v := by
  funext i
  obtain ⟨u, c, rfl⟩ : ∃ (u : Fin 1) (c : Fin 64), i = ix2 u c := ⟨i 0, i 1, eq_ix2 i⟩
  exact shapeCast_a_1a_apply v _ u c
theorem rowOf128_eq (v : FVec Ideal Cert.KernelIdeal.S128 .f32) : Cert.KModel.rowOf128 v = Cert.Model.asRow v := by
  funext i
  obtain ⟨u, c, rfl⟩ : ∃ (u : Fin 1) (c : Fin 128), i = ix2 u c := ⟨i 0, i 1, eq_ix2 i⟩
  exact shapeCast_a_1a_apply v _ u c
theorem rowOf2_eq (v : FVec Ideal Cert.KernelIdeal.S2 .f32) : Cert.KModel.rowOf2 v = Cert.Model.asRow v := by
  funext i
  obtain ⟨u, c, rfl⟩ : ∃ (u : Fin 1) (c : Fin 2), i = ix2 u c := ⟨i 0, i 1, eq_ix2 i⟩
  exact shapeCast_a_1a_apply v _ u c

end Cert.RefOps

end
-- ==== Proof.Layer0.lean ====
/-
  A node-update region of the kernel program. The grid has ten points; point `t` stages rows
  `10000·t … 10000·t + 9999` of the received sums and of the node features, the two 64 × 64 matrices and the bias row
  whole, and writes back the same rows of the result. Row by row the body's result is the update of the model,
  `max (agg · W_rel + h · W_root + b, 0)`, so the ten blocks tile the array with the update of the arrays the region
  is entered with.
-/
import proofs.«408034_j60224031425327_1_alg».proof.Proof.Gen.KernelIdeal.Frame
import proofs.«408034_j60224031425327_1_alg».proof.Proof.Model
import proofs.«408034_j60224031425327_1_alg».proof.Proof.LibPlainDot
import Idealize.ShloMosaic.Lib.Pipeline.Value
import Idealize.ShloMosaic.Lib.ValueLayout

set_option maxRecDepth 16384

noncomputable section

namespace Cert.KernelIdeal.Layer0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- A 10000 × 64 block times a 64 × 64 matrix into the zero accumulator, at (row `p`, column `q`): the row-by-column sum. -/
theorem block_product (l : FVec Ideal S10000x64 .bf16) (r : FVec Ideal S64x64 .bf16) (p : Fin 10000) (q : Fin 64) :
    matmul dot_S10000x64_S64x64_S10000x64_1_0_0_1_n_n none l r (constant S10000x64 .f32 0x00000000#32) (ix2 p q)
      = ∑ k : Fin 64, l (ix2 p k) * r (ix2 k q) :=
  Cert.LibPlainDot.matmul_zero_apply 10000 64 64 none l r (ix2 p q)

/-- The body's result on a block is the model's update of the block's rows. -/
theorem payload_eq (x0 x1 : Vec Ideal S10000x64 .f32) (x2 x3 : Vec Ideal S64x64 .f32) (x4 : Vec Ideal S1x64 .f32) :
    k0_pay1 x0 x1 x2 x3 x4 = Cert.Model.layer (R := 10000) x0 x1 x2 x3 x4 := by
  funext j
  obtain ⟨p, q, rfl⟩ : ∃ (p : Fin 10000) (q : Fin 64), j = ix2 p q := ⟨j 0, j 1, eq_ix2 j⟩
  unfold k0_pay1
  simp only [shapeCast_self]
  show max (((matmul (F := Ideal) dot_S10000x64_S64x64_S10000x64_1_0_0_1_n_n none (truncf .bf16 x0 bitsLt_bf16_f32) (truncf .bf16 x2 bitsLt_bf16_f32)
        (constant (F := Ideal) S10000x64 .f32 0x00000000#32)) (ix2 p q)
      + (matmul (F := Ideal) dot_S10000x64_S64x64_S10000x64_1_0_0_1_n_n none (truncf .bf16 x1 bitsLt_bf16_f32) (truncf .bf16 x3 bitsLt_bf16_f32)
        (constant (F := Ideal) S10000x64 .f32 0x00000000#32)) (ix2 p q))
      + broadcastTo S10000x64 x4 broadcasts_S1x64_S10000x64 (ix2 p q)) (Ideal.ofBits .f32 0x00000000#32)
    = max (((∑ k : Fin 64, x0 (ix2 p k) * x2 (ix2 k q)) + ∑ k : Fin 64, x1 (ix2 p k) * x3 (ix2 k q)) + x4 (ix2 (0 : Fin 1) q)) 0
  rw [block_product, block_product, broadcastTo_1b_ab_apply, Ideal.ofBits_zero_f32]
  rfl

/-- The printed index maps, decided over the ten points: the row windows move with the point, the others stay. -/
theorem index_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

set_option maxHeartbeats 1000000 in
/-- WHAT POINT `t` WRITES BACK is block `t` of the update of the arrays the region is entered with: rows
    `10000·t …` of the sums and of the features meet the whole matrices and the bias row. -/
theorem flushed_eq (c : Dev nD) (t : Fin cfg0.N) :
    (dat0 V c).flushed 5 t = ((cfg0.win 5).blk t).view.read (Elt Ideal)
      (Cert.Model.layer (R := 100000) (V c main_v7) (V c main_arg0) (V c main_v9) (V c main_v11) (V c main_v14)) := by
  show (cfg0.win 5).cut (grid0.coords t) ((dat0 V c).after 5 t) = _
  rw [after0_5]
  unfold out0_5
  rw [View.canon_unit_zero origin]
  simp only [View.ld_unit_zero (S := S10000x64) origin, View.ld_unit_zero (S := S64x64) origin, View.ld_unit_zero (S := S1x64) origin]
  rw [payload_eq]
  obtain ⟨e00, e01, e10, e11, e20, e21, e30, e31, e40, e41, e50, e51⟩ := index_facts t
  funext j
  have hj0 : (j 0).val < 10000 := (j 0).isLt
  have hj1 : (j 1).val < 64 := (j 1).isLt
  have hA : ∀ k : Fin 64, iblk0 V c 0 t (ix2 (j 0) k) = V c main_v7 (ix2 ((((cfg0.win 5).blk t).view.emb j) 0) k) := fun k => by
    show V c main_v7 (((cfg0.win 0).blk t).view.emb (ix2 (j 0) k)) = _
    refine congrArg (V c main_v7) (funext fun a => Fin.ext ?_)
    match a with
    | ⟨0, _⟩ => show win0_0.index t (0 : Fin 2) * 10000 + 1 * (j 0).val = win0_5.index t (0 : Fin 2) * 10000 + 1 * (j 0).val; omega
    | ⟨1, _⟩ => show win0_0.index t (1 : Fin 2) * 64 + 1 * k.val = k.val; omega
  have hH : ∀ k : Fin 64, iblk0 V c 1 t (ix2 (j 0) k) = V c main_arg0 (ix2 ((((cfg0.win 5).blk t).view.emb j) 0) k) := fun k => by
    show V c main_arg0 (((cfg0.win 1).blk t).view.emb (ix2 (j 0) k)) = _
    refine congrArg (V c main_arg0) (funext fun a => Fin.ext ?_)
    match a with
    | ⟨0, _⟩ => show win0_1.index t (0 : Fin 2) * 10000 + 1 * (j 0).val = win0_5.index t (0 : Fin 2) * 10000 + 1 * (j 0).val; omega
    | ⟨1, _⟩ => show win0_1.index t (1 : Fin 2) * 64 + 1 * k.val = k.val; omega
  have hW : ∀ k : Fin 64, iblk0 V c 2 t (ix2 k (j 1)) = V c main_v9 (ix2 k ((((cfg0.win 5).blk t).view.emb j) 1)) := fun k => by
    show V c main_v9 (((cfg0.win 2).blk t).view.emb (ix2 k (j 1))) = _
    refine congrArg (V c main_v9) (funext fun a => Fin.ext ?_)
    match a with
    | ⟨0, _⟩ => show win0_2.index t (0 : Fin 2) * 64 + 1 * k.val = k.val; omega
    | ⟨1, _⟩ => show win0_2.index t (1 : Fin 2) * 64 + 1 * (j 1).val = win0_5.index t (1 : Fin 2) * 64 + 1 * (j 1).val; omega
  have hW' : ∀ k : Fin 64, iblk0 V c 3 t (ix2 k (j 1)) = V c main_v11 (ix2 k ((((cfg0.win 5).blk t).view.emb j) 1)) := fun k => by
    show V c main_v11 (((cfg0.win 3).blk t).view.emb (ix2 k (j 1))) = _
    refine congrArg (V c main_v11) (funext fun a => Fin.ext ?_)
    match a with
    | ⟨0, _⟩ => show win0_3.index t (0 : Fin 2) * 64 + 1 * k.val = k.val; omega
    | ⟨1, _⟩ => show win0_3.index t (1 : Fin 2) * 64 + 1 * (j 1).val = win0_5.index t (1 : Fin 2) * 64 + 1 * (j 1).val; omega
  have hb : iblk0 V c 4 t (ix2 (0 : Fin 1) (j 1)) = V c main_v14 (ix2 (0 : Fin 1) ((((cfg0.win 5).blk t).view.emb j) 1)) := by
    show V c main_v14 (((cfg0.win 4).blk t).view.emb (ix2 (0 : Fin 1) (j 1))) = _
    refine congrArg (V c main_v14) (funext fun a => Fin.ext ?_)
    match a with
    | ⟨0, _⟩ => show win0_4.index t (0 : Fin 2) * 1 + 1 * 0 = 0; omega
    | ⟨1, _⟩ => show win0_4.index t (1 : Fin 2) * 64 + 1 * (j 1).val = win0_5.index t (1 : Fin 2) * 64 + 1 * (j 1).val; omega
  show Cert.Model.layer (R := 10000) (iblk0 V c 0 t) (iblk0 V c 1 t) (iblk0 V c 2 t) (iblk0 V c 3 t) (iblk0 V c 4 t) j
      = Cert.Model.layer (R := 100000) (V c main_v7) (V c main_arg0) (V c main_v9) (V c main_v11) (V c main_v14) (((cfg0.win 5).blk t).view.emb j)
  unfold Cert.Model.layer
  exact congrArg₂ (max : EReal → EReal → EReal) (congrArg₂ (· + ·) (congrArg₂ (· + ·)
      (Finset.sum_congr rfl fun k _ => congrArg₂ (· * ·) (hA k) (hW k))
      (Finset.sum_congr rfl fun k _ => congrArg₂ (· * ·) (hH k) (hW' k))) hb) rfl

/-- An index of the array is in point `t`'s block iff each coordinate is in the block's range on its axis. -/
theorem mem_block (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v15).slice (win0_5.rect t)).set ↔ _
  rw [View.set_slice_whole, Rect.mem_set_unit]
  exact Iff.rfl

/-- Row `r` lies in the block of point `r / 10000`: the ten blocks tile the array. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 10 := N_0
  have hlt : (i 0).val / 10000 < cfg0.N := by rw [hN]; omega
  obtain ⟨-, -, -, -, -, -, -, -, -, -, e50, e51⟩ := index_facts ⟨(i 0).val / 10000, hlt⟩
  refine ⟨⟨(i 0).val / 10000, hlt⟩, flush0_5 _, ?_⟩
  rw [mem_block]
  intro a
  match a with
  | ⟨0, _⟩ =>
    show win0_5.index ⟨(i 0).val / 10000, hlt⟩ (0 : Fin 2) * 10000 ≤ (i 0).val ∧ (i 0).val < win0_5.index ⟨(i 0).val / 10000, hlt⟩ (0 : Fin 2) * 10000 + 10000
    rw [e50]; show (i 0).val / 10000 * 10000 ≤ (i 0).val ∧ (i 0).val < (i 0).val / 10000 * 10000 + 10000; omega
  | ⟨1, _⟩ =>
    show win0_5.index ⟨(i 0).val / 10000, hlt⟩ (1 : Fin 2) * 64 ≤ (i 1).val ∧ (i 1).val < win0_5.index ⟨(i 0).val / 10000, hlt⟩ (1 : Fin 2) * 64 + 64
    rw [e51]; omega

/-- THE ARRAY AFTER THE REGION: the update of the arrays it is entered with. -/
theorem final (c : Dev nD) :
    (dat0 V c).arrAt 5 cfg0.N
      = Cert.Model.layer (R := 100000) (V c main_v7) (V c main_arg0) (V c main_v9) (V c main_v11) (V c main_v14) :=
  (dat0 V c).arrAt_eq_of_cover 5 _ (fun t _ => flushed_eq V c t) cover

end Cert.KernelIdeal.Layer0

end
-- ==== Proof.Readout.lean ====
/-
  Region 3 of the kernel program: the readout. One grid point stages the pooled rows, the two weight matrices and the
  two bias rows whole; the body's result at (graph `g`, class `o`) is the logistic of
  `(∑ k, max ((∑ j, p[g,j] · W1[j,k]) + b1[k], 0) · W2[k,o]) + b2[o]`: the model's readout of the arrays the region is
  entered with, and the one block is the whole array.
-/
import proofs.«408034_j60224031425327_1_alg».proof.Proof.Gen.KernelIdeal.Frame
import proofs.«408034_j60224031425327_1_alg».proof.Proof.Model
import proofs.«408034_j60224031425327_1_alg».proof.Proof.LibPlainDot
import Idealize.ShloMosaic.Lib.Pipeline.Value
import Idealize.ShloMosaic.Lib.ValueLayout

set_option maxRecDepth 16384

noncomputable section

namespace Cert.KernelIdeal.Readout

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The 512 × 64 by 64 × 128 product into the zero accumulator, at an index. -/
theorem product1 (l : FVec Ideal S512x64 .bf16) (r : FVec Ideal S64x128 .bf16) (p : Fin 512) (q : Fin 128) :
    matmul dot_S512x64_S64x128_S512x128_1_0_0_1_n_n none l r (constant S512x128 .f32 0x00000000#32) (ix2 p q)
      = ∑ k : Fin 64, l (ix2 p k) * r (ix2 k q) :=
  Cert.LibPlainDot.matmul_zero_apply 512 64 128 none l r (ix2 p q)

/-- The 512 × 128 by 128 × 2 product into the zero accumulator, at an index. -/
theorem product2 (l : FVec Ideal S512x128 .bf16) (r : FVec Ideal S128x2 .bf16) (p : Fin 512) (q : Fin 2) :
    matmul dot_S512x128_S128x2_S512x2_1_0_0_1_n_n none l r (constant S512x2 .f32 0x00000000#32) (ix2 p q)
      = ∑ k : Fin 128, l (ix2 p k) * r (ix2 k q) :=
  Cert.LibPlainDot.matmul_zero_apply 512 128 2 none l r (ix2 p q)

/-- The body's hidden layer at (graph `p`, unit `k`). -/
theorem hidden_eq (x0 : Vec Ideal S512x64 .f32) (x1 : Vec Ideal S64x128 .f32) (x2 : Vec Ideal S1x128 .f32) (p : Fin 512) (k : Fin 128) :
    maximumf (addf (matmul (F := Ideal) dot_S512x64_S64x128_S512x128_1_0_0_1_n_n none (truncf .bf16 x0 bitsLt_bf16_f32) (truncf .bf16 x1 bitsLt_bf16_f32)
        (constant (F := Ideal) S512x128 .f32 0x00000000#32)) (broadcastTo S512x128 x2 broadcasts_S1x128_S512x128))
      (broadcast S512x128 (Scalar.ofBits (F := Ideal) .f32 0x00000000#32)) (ix2 p k)
    = Cert.Model.hidden x0 x1 x2 (ix2 p k) := by
  show max ((matmul (F := Ideal) dot_S512x64_S64x128_S512x128_1_0_0_1_n_n none (truncf .bf16 x0 bitsLt_bf16_f32) (truncf .bf16 x1 bitsLt_bf16_f32)
        (constant (F := Ideal) S512x128 .f32 0x00000000#32)) (ix2 p k) + broadcastTo S512x128 x2 broadcasts_S1x128_S512x128 (ix2 p k))
      (Ideal.ofBits .f32 0x00000000#32)
    = max ((∑ j : Fin 64, x0 (ix2 p j) * x1 (ix2 j k)) + x2 (ix2 (0 : Fin 1) k)) 0
  rw [product1, broadcastTo_1b_ab_apply, Ideal.ofBits_zero_f32]
  rfl

/-- The body's result is the model's readout of its loaded arrays. -/
theorem payload_eq (x0 : Vec Ideal S512x64 .f32) (x1 : Vec Ideal S64x128 .f32) (x2 : Vec Ideal S1x128 .f32)
    (x3 : Vec Ideal S128x2 .f32) (x4 : Vec Ideal S1x2 .f32) :
    k3_pay1 x0 x1 x2 x3 x4 = Cert.Model.readout x0 x1 x2 x3 x4 := by
  funext j
  obtain ⟨p, q, rfl⟩ : ∃ (p : Fin 512) (q : Fin 2), j = ix2 p q := ⟨j 0, j 1, eq_ix2 j⟩
  unfold k3_pay1
  simp only [shapeCast_self]
  show Ideal.logistic ((matmul (F := Ideal) dot_S512x128_S128x2_S512x2_1_0_0_1_n_n none
        (truncf .bf16 (maximumf (addf (matmul (F := Ideal) dot_S512x64_S64x128_S512x128_1_0_0_1_n_n none (truncf .bf16 x0 bitsLt_bf16_f32) (truncf .bf16 x1 bitsLt_bf16_f32)
            (constant (F := Ideal) S512x128 .f32 0x00000000#32)) (broadcastTo S512x128 x2 broadcasts_S1x128_S512x128))
          (broadcast S512x128 (Scalar.ofBits (F := Ideal) .f32 0x00000000#32))) bitsLt_bf16_f32)
        (truncf .bf16 x3 bitsLt_bf16_f32) (constant (F := Ideal) S512x2 .f32 0x00000000#32)) (ix2 p q)
      + broadcastTo S512x2 x4 broadcasts_S1x2_S512x2 (ix2 p q))
    = Ideal.logistic ((∑ k : Fin 128, Cert.Model.hidden x0 x1 x2 (ix2 p k) * x3 (ix2 k q)) + x4 (ix2 (0 : Fin 1) q))
  rw [product2, broadcastTo_1b_ab_apply]
  refine congrArg Ideal.logistic (congrArg₂ (· + ·) (Finset.sum_congr rfl fun k _ => congrArg₂ (· * ·) ?_ rfl) rfl)
  exact hidden_eq x0 x1 x2 p k

/-- The printed index maps at the one point: every window is its array's one block. -/
theorem index_facts : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

set_option maxHeartbeats 1000000 in
/-- WHAT THE ONE POINT WRITES BACK is the readout of the arrays the region is entered with. -/
theorem flushed_eq (c : Dev nD) (t : Fin cfg3.N) :
    (dat3 V c).flushed 5 t = ((cfg3.win 5).blk t).view.read (Elt Ideal)
      (Cert.Model.readout (V c main_v42) (V c main_arg6) (V c main_v43) (V c main_arg8) (V c main_v44)) := by
  show (cfg3.win 5).cut (grid3.coords t) ((dat3 V c).after 5 t) = _
  rw [after3_5]
  unfold out3_5
  rw [View.canon_unit_zero origin]
  simp only [View.ld_unit_zero (S := S512x64) origin, View.ld_unit_zero (S := S64x128) origin, View.ld_unit_zero (S := S1x128) origin,
    View.ld_unit_zero (S := S128x2) origin, View.ld_unit_zero (S := S1x2) origin]
  rw [payload_eq]
  obtain ⟨e00, e01, e10, e11, e20, e21, e30, e31, e40, e41, e50, e51⟩ := index_facts t
  funext j
  have hj0 : (j 0).val < 512 := (j 0).isLt
  have hj1 : (j 1).val < 2 := (j 1).isLt
  have hP : ∀ l : Fin 64, iblk3 V c 0 t (ix2 (j 0) l) = V c main_v42 (ix2 ((((cfg3.win 5).blk t).view.emb j) 0) l) := fun l => by
    show V c main_v42 (((cfg3.win 0).blk t).view.emb (ix2 (j 0) l)) = _
    refine congrArg (V c main_v42) (funext fun a => Fin.ext ?_)
    match a with
    | ⟨0, _⟩ => show win3_0.index t (0 : Fin 2) * 512 + 1 * (j 0).val = win3_5.index t (0 : Fin 2) * 512 + 1 * (j 0).val; omega
    | ⟨1, _⟩ => show win3_0.index t (1 : Fin 2) * 64 + 1 * l.val = l.val; omega
  have hW1 : ∀ (l : Fin 64) (k : Fin 128), iblk3 V c 1 t (ix2 l k) = V c main_arg6 (ix2 l k) := fun l k => by
    show V c main_arg6 (((cfg3.win 1).blk t).view.emb (ix2 l k)) = _
    refine congrArg (V c main_arg6) (funext fun a => Fin.ext ?_)
    match a with
    | ⟨0, _⟩ => show win3_1.index t (0 : Fin 2) * 64 + 1 * l.val = l.val; omega
    | ⟨1, _⟩ => show win3_1.index t (1 : Fin 2) * 128 + 1 * k.val = k.val; omega
  have hB1 : ∀ k : Fin 128, iblk3 V c 2 t (ix2 (0 : Fin 1) k) = V c main_v43 (ix2 (0 : Fin 1) k) := fun k => by
    show V c main_v43 (((cfg3.win 2).blk t).view.emb (ix2 (0 : Fin 1) k)) = _
    refine congrArg (V c main_v43) (funext fun a => Fin.ext ?_)
    match a with
    | ⟨0, _⟩ => show win3_2.index t (0 : Fin 2) * 1 + 1 * 0 = 0; omega
    | ⟨1, _⟩ => show win3_2.index t (1 : Fin 2) * 128 + 1 * k.val = k.val; omega
  have hW2 : ∀ k : Fin 128, iblk3 V c 3 t (ix2 k (j 1)) = V c main_arg8 (ix2 k ((((cfg3.win 5).blk t).view.emb j) 1)) := fun k => by
    show V c main_arg8 (((cfg3.win 3).blk t).view.emb (ix2 k (j 1))) = _
    refine congrArg (V c main_arg8) (funext fun a => Fin.ext ?_)
    match a with
    | ⟨0, _⟩ => show win3_3.index t (0 : Fin 2) * 128 + 1 * k.val = k.val; omega
    | ⟨1, _⟩ => show win3_3.index t (1 : Fin 2) * 2 + 1 * (j 1).val = win3_5.index t (1 : Fin 2) * 2 + 1 * (j 1).val; omega
  have hB2 : iblk3 V c 4 t (ix2 (0 : Fin 1) (j 1)) = V c main_v44 (ix2 (0 : Fin 1) ((((cfg3.win 5).blk t).view.emb j) 1)) := by
    show V c main_v44 (((cfg3.win 4).blk t).view.emb (ix2 (0 : Fin 1) (j 1))) = _
    refine congrArg (V c main_v44) (funext fun a => Fin.ext ?_)
    match a with
    | ⟨0, _⟩ => show win3_4.index t (0 : Fin 2) * 1 + 1 * 0 = 0; omega
    | ⟨1, _⟩ => show win3_4.index t (1 : Fin 2) * 2 + 1 * (j 1).val = win3_5.index t (1 : Fin 2) * 2 + 1 * (j 1).val; omega
  show Cert.Model.readout (iblk3 V c 0 t) (iblk3 V c 1 t) (iblk3 V c 2 t) (iblk3 V c 3 t) (iblk3 V c 4 t) j
     = Cert.Model.readout (V c main_v42) (V c main_arg6) (V c main_v43) (V c main_arg8) (V c main_v44) (((cfg3.win 5).blk t).view.emb j)
  unfold Cert.Model.readout Cert.Model.hidden
  exact congrArg Ideal.logistic (congrArg₂ (· + ·)
    (Finset.sum_congr rfl fun k _ => congrArg₂ (· * ·)
      (congrArg₂ (max : EReal → EReal → EReal) (congrArg₂ (· + ·)
        (Finset.sum_congr rfl fun l _ => congrArg₂ (· * ·) (hP l) (hW1 l k)) (hB1 k)) rfl)
      (hW2 k)) hB2)

/-- An index of the array is in the point's block iff each coordinate is in the block's range on its axis. -/
theorem mem_block (t : Fin cfg3.N) (i : S512x2.Idx) :
    i ∈ ((cfg3.win 5).blk t).view.set ↔ ∀ a : Fin 2, win3_5.index t a * S512x2.size a ≤ (i a).val ∧ (i a).val < win3_5.index t a * S512x2.size a + S512x2.size a := by
  show i ∈ ((View.whole main_v45).slice (win3_5.rect t)).set ↔ _
  rw [View.set_slice_whole, Rect.mem_set_unit]
  exact Iff.rfl

/-- The one block is the whole array. -/
theorem cover (i : S512x2.Idx) : ∃ t : Fin cfg3.N, (cfg3.win 5).flush t = true ∧ i ∈ ((cfg3.win 5).blk t).view.set := by
  have hi0 : (i 0).val < 512 := (i 0).isLt
  have hi1 : (i 1).val < 2 := (i 1).isLt
  obtain ⟨-, -, -, -, -, -, -, -, -, -, e50, e51⟩ := index_facts t3_0
  refine ⟨t3_0, flush3_5 _, ?_⟩
  rw [mem_block]
  intro a
  match a with
  | ⟨0, _⟩ =>
    show win3_5.index t3_0 (0 : Fin 2) * 512 ≤ (i 0).val ∧ (i 0).val < win3_5.index t3_0 (0 : Fin 2) * 512 + 512
    rw [e50]; omega
  | ⟨1, _⟩ =>
    show win3_5.index t3_0 (1 : Fin 2) * 2 ≤ (i 1).val ∧ (i 1).val < win3_5.index t3_0 (1 : Fin 2) * 2 + 2
    rw [e51]; omega

/-- THE ARRAY AFTER THE REGION: the readout of the arrays it is entered with. -/
theorem final (c : Dev nD) :
    (dat3 V c).arrAt 5 cfg3.N
      = Cert.Model.readout (V c main_v42) (V c main_arg6) (V c main_v43) (V c main_arg8) (V c main_v44) :=
  (dat3 V c).arrAt_eq_of_cover 5 _ (fun t _ => flushed_eq V c t) cover

end Cert.KernelIdeal.Readout

end
-- ==== Proof.KValue.lean ====
/-
  The kernel program's two results as the model's functions of its arguments: the buffer contents at the last
  segment boundary, walked back through @main. The edge list's rows and the arguments the later stretches read are
  carried unchanged from boundary to boundary; each layer's host stretches prepare the received sums and that
  layer's weights, its region leaves the model's update, and the source indices being row numbers (the
  precondition) makes the fill-mode gather the plain one; the last stretch pools and the last region reads out.
-/
import proofs.«408034_j60224031425327_1_alg».proof.Proof.Gen.KernelIdeal.Frame
import proofs.«408034_j60224031425327_1_alg».proof.Proof.Stretch
import proofs.«408034_j60224031425327_1_alg».proof.Proof.Domain
import proofs.«408034_j60224031425327_1_alg».proof.Proof.RefOps
import proofs.«408034_j60224031425327_1_alg».proof.Proof.Layer0
import proofs.«408034_j60224031425327_1_alg».proof.Proof.Layer1
import proofs.«408034_j60224031425327_1_alg».proof.Proof.Layer2
import proofs.«408034_j60224031425327_1_alg».proof.Proof.Readout

set_option maxRecDepth 16384

noncomputable section

namespace Cert.KernelIdeal.KValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-- The update is a function of its five operands. -/
theorem layer_congr {R : Nat} {a a' h h' : (⟨2, ![R, 64]⟩ : Shape).Idx → EReal} {w w' v v' : (⟨2, ![64, 64]⟩ : Shape).Idx → EReal}
    {b b' : (⟨2, ![1, 64]⟩ : Shape).Idx → EReal} (ea : a = a') (eh : h = h') (ew : w = w') (ev : v = v') (eb : b = b') :
    Cert.Model.layer a h w v b = Cert.Model.layer a' h' w' v' b' := by rw [ea, eh, ew, ev, eb]

/-- The readout is a function of its five operands. -/
theorem readout_congr {p p' : (⟨2, ![512, 64]⟩ : Shape).Idx → EReal} {w1 w1' : (⟨2, ![64, 128]⟩ : Shape).Idx → EReal}
    {b1 b1' : (⟨2, ![1, 128]⟩ : Shape).Idx → EReal} {w2 w2' : (⟨2, ![128, 2]⟩ : Shape).Idx → EReal}
    {b2 b2' : (⟨2, ![1, 2]⟩ : Shape).Idx → EReal} (ep : p = p') (e1 : w1 = w1') (e2 : b1 = b1') (e3 : w2 = w2') (e4 : b2 = b2') :
    Cert.Model.readout p w1 b1 w2 b2 = Cert.Model.readout p' w1' b1' w2' b2' := by rw [ep, e1, e2, e3, e4]

/-! ## The buffers that live through the run: the edge list's rows and the arguments later stretches read -/

abbrev longLived : List (Ref sig .tc) :=
  [main_v1, main_v3, main_arg2, main_arg3, main_arg4, main_arg5, main_arg6, main_arg7, main_arg8, main_arg9]

theorem stable2 (b : Ref sig .tc) (hb : b ∈ longLived) : W2 m ρ c (Proc.devRef .tc b) = W1 m ρ c (Proc.devRef .tc b) :=
  Stretch.keep_hostOps0_1 (W1 m ρ c) b ((by decide : ∀ b ∈ longLived, b ∉ ([main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4] : List (Ref sig .tc))) b hb)
theorem stable3 (b : Ref sig .tc) (hb : b ∈ longLived) : W3 m ρ c (Proc.devRef .tc b) = W1 m ρ c (Proc.devRef .tc b) :=
  (Stretch.keep_hostOps0_2 (W2 m ρ c) b ((by decide : ∀ b ∈ longLived, b ∉ ([main_cst, main_v5, main_v6, main_v7, main_v8, main_v9, main_v10, main_v11, main_v12, main_v13, main_v14] : List (Ref sig .tc))) b hb)).trans (stable2 m ρ c b hb)
theorem stable4 (b : Ref sig .tc) (hb : b ∈ longLived) : W4 m ρ c (Proc.devRef .tc b) = W1 m ρ c (Proc.devRef .tc b) :=
  (W4_of_ne m ρ c b ((by decide : ∀ b ∈ longLived, ∀ w : Fin 6, Pipeline.arrRef spec0 w ≠ b) b hb)).trans (stable3 m ρ c b hb)
theorem stable5 (b : Ref sig .tc) (hb : b ∈ longLived) : W5 m ρ c (Proc.devRef .tc b) = W1 m ρ c (Proc.devRef .tc b) :=
  (Stretch.keep_hostOps1 (W4 m ρ c) b ((by decide : ∀ b ∈ longLived, b ∉ ([main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v16] : List (Ref sig .tc))) b hb)).trans (stable4 m ρ c b hb)
theorem stable6 (b : Ref sig .tc) (hb : b ∈ longLived) : W6 m ρ c (Proc.devRef .tc b) = W1 m ρ c (Proc.devRef .tc b) :=
  (Stretch.keep_hostOps1_1 (W5 m ρ c) b ((by decide : ∀ b ∈ longLived, b ∉ ([main_cst_0, main_v17, main_v18, main_v19, main_v20, main_v21, main_v22, main_v23, main_v24, main_v25, main_v26] : List (Ref sig .tc))) b hb)).trans (stable5 m ρ c b hb)
theorem stable7 (b : Ref sig .tc) (hb : b ∈ longLived) : W7 m ρ c (Proc.devRef .tc b) = W1 m ρ c (Proc.devRef .tc b) :=
  (W7_of_ne m ρ c b ((by decide : ∀ b ∈ longLived, ∀ w : Fin 6, Pipeline.arrRef spec1 w ≠ b) b hb)).trans (stable6 m ρ c b hb)
theorem stable8 (b : Ref sig .tc) (hb : b ∈ longLived) : W8 m ρ c (Proc.devRef .tc b) = W1 m ρ c (Proc.devRef .tc b) :=
  (Stretch.keep_hostOps2 (W7 m ρ c) b ((by decide : ∀ b ∈ longLived, b ∉ ([main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v28] : List (Ref sig .tc))) b hb)).trans (stable7 m ρ c b hb)
theorem stable9 (b : Ref sig .tc) (hb : b ∈ longLived) : W9 m ρ c (Proc.devRef .tc b) = W1 m ρ c (Proc.devRef .tc b) :=
  (Stretch.keep_hostOps2_1 (W8 m ρ c) b ((by decide : ∀ b ∈ longLived, b ∉ ([main_cst_1, main_v29, main_v30, main_v31, main_v32, main_v33, main_v34, main_v35, main_v36, main_v37, main_v38] : List (Ref sig .tc))) b hb)).trans (stable8 m ρ c b hb)
theorem stable10 (b : Ref sig .tc) (hb : b ∈ longLived) : W10 m ρ c (Proc.devRef .tc b) = W1 m ρ c (Proc.devRef .tc b) :=
  (W10_of_ne m ρ c b ((by decide : ∀ b ∈ longLived, ∀ w : Fin 6, Pipeline.arrRef spec2 w ≠ b) b hb)).trans (stable9 m ρ c b hb)
theorem stable11 (b : Ref sig .tc) (hb : b ∈ longLived) : W11 m ρ c (Proc.devRef .tc b) = W1 m ρ c (Proc.devRef .tc b) :=
  (Stretch.keep_hostOps3 (W10 m ρ c) b ((by decide : ∀ b ∈ longLived, b ∉ ([main_cst_2, main_v40, main_v41, main_v42, main_v43, main_v44] : List (Ref sig .tc))) b hb)).trans (stable10 m ρ c b hb)

/-! ## Their contents after the first stretch -/

theorem main_v1_W1 : W1 m ρ c (Proc.devRef .tc main_v1) = Cert.Model.srcRow (m ((c.tc : Thread nD τ).loc main_arg1)) := Stretch.src_hostOps0 (W0 m ρ c)
theorem main_v3_W1 : W1 m ρ c (Proc.devRef .tc main_v3) = Cert.Model.dstRow (m ((c.tc : Thread nD τ).loc main_arg1)) := Stretch.dst_hostOps0 (W0 m ρ c)
theorem main_arg0_W1 : W1 m ρ c (Proc.devRef .tc main_arg0) = (m ((c.tc : Thread nD τ).loc main_arg0)) :=
  Stretch.keep_hostOps0 (W0 m ρ c) main_arg0 (by decide)
theorem main_arg2_W1 : W1 m ρ c (Proc.devRef .tc main_arg2) = (m ((c.tc : Thread nD τ).loc main_arg2)) :=
  Stretch.keep_hostOps0 (W0 m ρ c) main_arg2 (by decide)
theorem main_arg3_W1 : W1 m ρ c (Proc.devRef .tc main_arg3) = (m ((c.tc : Thread nD τ).loc main_arg3)) :=
  Stretch.keep_hostOps0 (W0 m ρ c) main_arg3 (by decide)
theorem main_arg4_W1 : W1 m ρ c (Proc.devRef .tc main_arg4) = (m ((c.tc : Thread nD τ).loc main_arg4)) :=
  Stretch.keep_hostOps0 (W0 m ρ c) main_arg4 (by decide)
theorem main_arg5_W1 : W1 m ρ c (Proc.devRef .tc main_arg5) = (m ((c.tc : Thread nD τ).loc main_arg5)) :=
  Stretch.keep_hostOps0 (W0 m ρ c) main_arg5 (by decide)
theorem main_arg6_W1 : W1 m ρ c (Proc.devRef .tc main_arg6) = (m ((c.tc : Thread nD τ).loc main_arg6)) :=
  Stretch.keep_hostOps0 (W0 m ρ c) main_arg6 (by decide)
theorem main_arg7_W1 : W1 m ρ c (Proc.devRef .tc main_arg7) = (m ((c.tc : Thread nD τ).loc main_arg7)) :=
  Stretch.keep_hostOps0 (W0 m ρ c) main_arg7 (by decide)
theorem main_arg8_W1 : W1 m ρ c (Proc.devRef .tc main_arg8) = (m ((c.tc : Thread nD τ).loc main_arg8)) :=
  Stretch.keep_hostOps0 (W0 m ρ c) main_arg8 (by decide)
theorem main_arg9_W1 : W1 m ρ c (Proc.devRef .tc main_arg9) = (m ((c.tc : Thread nD τ).loc main_arg9)) :=
  Stretch.keep_hostOps0 (W0 m ρ c) main_arg9 (by decide)

/-! ## Layer 0 -/

/-- The features entering layer 0, still in place when its region is entered. -/
theorem featIn0 (hpre : Cert.Pre_KernelIdeal m) : W3 m ρ c (Proc.devRef .tc main_arg0) = (m ((c.tc : Thread nD τ).loc main_arg0)) :=
  (Stretch.keep_hostOps0_2 (W2 m ρ c) main_arg0 (by decide)).trans
    ((Stretch.keep_hostOps0_1 (W1 m ρ c) main_arg0 (by decide)).trans (main_arg0_W1 m ρ c))

/-- The gathered rows of layer 0: the plain gather, every source index being a row number. -/
theorem gath0 (hpre : Cert.Pre_KernelIdeal m) :
    W2 m ρ c (Proc.devRef .tc main_v4) = Cert.Model.rowsAt (m ((c.tc : Thread nD τ).loc main_arg0)) (Cert.Model.wrapCol (Cert.Model.srcRow (m ((c.tc : Thread nD τ).loc main_arg1)))) :=
  (Stretch.take_hostOps0_1 (W1 m ρ c)).trans
    ((congrArg₂ Cert.KModel.takeFill (main_arg0_W1 m ρ c) (main_v1_W1 m ρ c)).trans
      (Cert.Domain.takeFill_eq _ _ (Cert.Domain.src_range m hpre c)))

/-- What the nodes receive in layer 0. -/
theorem agg0 (hpre : Cert.Pre_KernelIdeal m) : W3 m ρ c (Proc.devRef .tc main_v7) = Cert.Model.aggregate (m ((c.tc : Thread nD τ).loc main_arg0)) (m ((c.tc : Thread nD τ).loc main_arg1)) :=
  (Stretch.agg_hostOps0_2 (W2 m ρ c)).trans
    (congrArg₂ Cert.Model.sumInto ((stable2 m ρ c main_v3 (by decide)).trans (main_v3_W1 m ρ c)) (gath0 m ρ c hpre))

theorem wrel0 : W3 m ρ c (Proc.devRef .tc main_v9) = Cert.Model.matAt 0 Cert.KernelIdeal.Gen.slices_S3x64x64_S1x64x64_0_0_0 (m ((c.tc : Thread nD τ).loc main_arg3)) :=
  (Stretch.wrel_hostOps0_2 (W2 m ρ c)).trans (congrArg (Cert.Model.matAt 0 Cert.KernelIdeal.Gen.slices_S3x64x64_S1x64x64_0_0_0) ((stable2 m ρ c main_arg3 (by decide)).trans (main_arg3_W1 m ρ c)))
theorem wroot0 : W3 m ρ c (Proc.devRef .tc main_v11) = Cert.Model.matAt 0 Cert.KernelIdeal.Gen.slices_S3x64x64_S1x64x64_0_0_0 (m ((c.tc : Thread nD τ).loc main_arg4)) :=
  (Stretch.wroot_hostOps0_2 (W2 m ρ c)).trans (congrArg (Cert.Model.matAt 0 Cert.KernelIdeal.Gen.slices_S3x64x64_S1x64x64_0_0_0) ((stable2 m ρ c main_arg4 (by decide)).trans (main_arg4_W1 m ρ c)))
theorem bias0 : W3 m ρ c (Proc.devRef .tc main_v14) = Cert.Model.asRow (Cert.Model.rowAt 0 Cert.KernelIdeal.Gen.slices_S3x64_S1x64_0_0 (m ((c.tc : Thread nD τ).loc main_arg5))) :=
  (Stretch.bias_hostOps0_2 (W2 m ρ c)).trans
    ((congrArg (fun v => Cert.KModel.rowOf64 (Cert.Model.rowAt 0 Cert.KernelIdeal.Gen.slices_S3x64_S1x64_0_0 v)) ((stable2 m ρ c main_arg5 (by decide)).trans (main_arg5_W1 m ρ c))).trans
      (Cert.RefOps.rowOf64_eq _))

/-- The features after layer 0: the model's step. -/
theorem feat0 (hpre : Cert.Pre_KernelIdeal m) : W4 m ρ c (Proc.devRef .tc main_v15) = (Cert.Model.step 0 Cert.ReferenceIdeal.Gen.slices_S3x64x64_S1x64x64_0_0_0 Cert.ReferenceIdeal.Gen.slices_S3x64_S1x64_0_0 (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg0))) :=
  (W4_arr m ρ c 5).trans ((Layer0.final (V3 m ρ) c).trans
    (layer_congr (agg0 m ρ c hpre) (featIn0 m ρ c hpre) (wrel0 m ρ c) (wroot0 m ρ c) (bias0 m ρ c)))

/-! ## Layer 1 -/

/-- The features entering layer 1, still in place when its region is entered. -/
theorem featIn1 (hpre : Cert.Pre_KernelIdeal m) : W6 m ρ c (Proc.devRef .tc main_v15) = (Cert.Model.step 0 Cert.ReferenceIdeal.Gen.slices_S3x64x64_S1x64x64_0_0_0 Cert.ReferenceIdeal.Gen.slices_S3x64_S1x64_0_0 (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg0))) :=
  (Stretch.keep_hostOps1_1 (W5 m ρ c) main_v15 (by decide)).trans
    ((Stretch.keep_hostOps1 (W4 m ρ c) main_v15 (by decide)).trans (feat0 m ρ c hpre))

/-- The gathered rows of layer 1: the plain gather, every source index being a row number. -/
theorem gath1 (hpre : Cert.Pre_KernelIdeal m) :
    W5 m ρ c (Proc.devRef .tc main_v16) = Cert.Model.rowsAt (Cert.Model.step 0 Cert.ReferenceIdeal.Gen.slices_S3x64x64_S1x64x64_0_0_0 Cert.ReferenceIdeal.Gen.slices_S3x64_S1x64_0_0 (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg0))) (Cert.Model.wrapCol (Cert.Model.srcRow (m ((c.tc : Thread nD τ).loc main_arg1)))) :=
  (Stretch.take_hostOps1 (W4 m ρ c)).trans
    ((congrArg₂ Cert.KModel.takeFill (feat0 m ρ c hpre) ((stable4 m ρ c main_v1 (by decide)).trans (main_v1_W1 m ρ c))).trans
      (Cert.Domain.takeFill_eq _ _ (Cert.Domain.src_range m hpre c)))

/-- What the nodes receive in layer 1. -/
theorem agg1 (hpre : Cert.Pre_KernelIdeal m) : W6 m ρ c (Proc.devRef .tc main_v19) = Cert.Model.aggregate (Cert.Model.step 0 Cert.ReferenceIdeal.Gen.slices_S3x64x64_S1x64x64_0_0_0 Cert.ReferenceIdeal.Gen.slices_S3x64_S1x64_0_0 (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg0))) (m ((c.tc : Thread nD τ).loc main_arg1)) :=
  (Stretch.agg_hostOps1_1 (W5 m ρ c)).trans
    (congrArg₂ Cert.Model.sumInto ((stable5 m ρ c main_v3 (by decide)).trans (main_v3_W1 m ρ c)) (gath1 m ρ c hpre))

theorem wrel1 : W6 m ρ c (Proc.devRef .tc main_v21) = Cert.Model.matAt 1 Cert.KernelIdeal.Gen.slices_S3x64x64_S1x64x64_1_0_0 (m ((c.tc : Thread nD τ).loc main_arg3)) :=
  (Stretch.wrel_hostOps1_1 (W5 m ρ c)).trans (congrArg (Cert.Model.matAt 1 Cert.KernelIdeal.Gen.slices_S3x64x64_S1x64x64_1_0_0) ((stable5 m ρ c main_arg3 (by decide)).trans (main_arg3_W1 m ρ c)))
theorem wroot1 : W6 m ρ c (Proc.devRef .tc main_v23) = Cert.Model.matAt 1 Cert.KernelIdeal.Gen.slices_S3x64x64_S1x64x64_1_0_0 (m ((c.tc : Thread nD τ).loc main_arg4)) :=
  (Stretch.wroot_hostOps1_1 (W5 m ρ c)).trans (congrArg (Cert.Model.matAt 1 Cert.KernelIdeal.Gen.slices_S3x64x64_S1x64x64_1_0_0) ((stable5 m ρ c main_arg4 (by decide)).trans (main_arg4_W1 m ρ c)))
theorem bias1 : W6 m ρ c (Proc.devRef .tc main_v26) = Cert.Model.asRow (Cert.Model.rowAt 1 Cert.KernelIdeal.Gen.slices_S3x64_S1x64_1_0 (m ((c.tc : Thread nD τ).loc main_arg5))) :=
  (Stretch.bias_hostOps1_1 (W5 m ρ c)).trans
    ((congrArg (fun v => Cert.KModel.rowOf64 (Cert.Model.rowAt 1 Cert.KernelIdeal.Gen.slices_S3x64_S1x64_1_0 v)) ((stable5 m ρ c main_arg5 (by decide)).trans (main_arg5_W1 m ρ c))).trans
      (Cert.RefOps.rowOf64_eq _))

/-- The features after layer 1: the model's step. -/
theorem feat1 (hpre : Cert.Pre_KernelIdeal m) : W7 m ρ c (Proc.devRef .tc main_v27) = (Cert.Model.step 1 Cert.ReferenceIdeal.Gen.slices_S3x64x64_S1x64x64_1_0_0 Cert.ReferenceIdeal.Gen.slices_S3x64_S1x64_1_0 (m ((c.tc : Thread nD τ).loc main_arg1)) (m ((c.tc : Thread nD τ).loc main_arg3)) (m ((c.tc : Thread nD τ).loc main_arg4)) (m ((c.tc : Thread nD τ).loc main_arg5)) (Cert.Model.step 0 Cert.ReferenceIdeal.Gen.slices_S3x64x64_S1x64x64_0_0_0 Cert.ReferenceIdeal.Gen.slices_S3x64_S1x64_0_0 (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg0)))) :=
  (W7_arr m ρ c 5).trans ((Layer1.final (V6 m ρ) c).trans
    (layer_congr (agg1 m ρ c hpre) (featIn1 m ρ c hpre) (wrel1 m ρ c) (wroot1 m ρ c) (bias1 m ρ c)))

/-! ## Layer 2 -/

/-- The features entering layer 2, still in place when its region is entered. -/
theorem featIn2 (hpre : Cert.Pre_KernelIdeal m) : W9 m ρ c (Proc.devRef .tc main_v27) = (Cert.Model.step 1 Cert.ReferenceIdeal.Gen.slices_S3x64x64_S1x64x64_1_0_0 Cert.ReferenceIdeal.Gen.slices_S3x64_S1x64_1_0 (m ((c.tc : Thread nD τ).loc main_arg1)) (m ((c.tc : Thread nD τ).loc main_arg3)) (m ((c.tc : Thread nD τ).loc main_arg4)) (m ((c.tc : Thread nD τ).loc main_arg5)) (Cert.Model.step 0 Cert.ReferenceIdeal.Gen.slices_S3x64x64_S1x64x64_0_0_0 Cert.ReferenceIdeal.Gen.slices_S3x64_S1x64_0_0 (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg0)))) :=
  (Stretch.keep_hostOps2_1 (W8 m ρ c) main_v27 (by decide)).trans
    ((Stretch.keep_hostOps2 (W7 m ρ c) main_v27 (by decide)).trans (feat1 m ρ c hpre))

/-- The gathered rows of layer 2: the plain gather, every source index being a row number. -/
theorem gath2 (hpre : Cert.Pre_KernelIdeal m) :
    W8 m ρ c (Proc.devRef .tc main_v28) = Cert.Model.rowsAt (Cert.Model.step 1 Cert.ReferenceIdeal.Gen.slices_S3x64x64_S1x64x64_1_0_0 Cert.ReferenceIdeal.Gen.slices_S3x64_S1x64_1_0 (m ((c.tc : Thread nD τ).loc main_arg1)) (m ((c.tc : Thread nD τ).loc main_arg3)) (m ((c.tc : Thread nD τ).loc main_arg4)) (m ((c.tc : Thread nD τ).loc main_arg5)) (Cert.Model.step 0 Cert.ReferenceIdeal.Gen.slices_S3x64x64_S1x64x64_0_0_0 Cert.ReferenceIdeal.Gen.slices_S3x64_S1x64_0_0 (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg0)))) (Cert.Model.wrapCol (Cert.Model.srcRow (m ((c.tc : Thread nD τ).loc main_arg1)))) :=
  (Stretch.take_hostOps2 (W7 m ρ c)).trans
    ((congrArg₂ Cert.KModel.takeFill (feat1 m ρ c hpre) ((stable7 m ρ c main_v1 (by decide)).trans (main_v1_W1 m ρ c))).trans
      (Cert.Domain.takeFill_eq _ _ (Cert.Domain.src_range m hpre c)))

/-- What the nodes receive in layer 2. -/
theorem agg2 (hpre : Cert.Pre_KernelIdeal m) : W9 m ρ c (Proc.devRef .tc main_v31) = Cert.Model.aggregate (Cert.Model.step 1 Cert.ReferenceIdeal.Gen.slices_S3x64x64_S1x64x64_1_0_0 Cert.ReferenceIdeal.Gen.slices_S3x64_S1x64_1_0 (m ((c.tc : Thread nD τ).loc main_arg1)) (m ((c.tc : Thread nD τ).loc main_arg3)) (m ((c.tc : Thread nD τ).loc main_arg4)) (m ((c.tc : Thread nD τ).loc main_arg5)) (Cert.Model.step 0 Cert.ReferenceIdeal.Gen.slices_S3x64x64_S1x64x64_0_0_0 Cert.ReferenceIdeal.Gen.slices_S3x64_S1x64_0_0 (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg0)))) (m ((c.tc : Thread nD τ).loc main_arg1)) :=
  (Stretch.agg_hostOps2_1 (W8 m ρ c)).trans
    (congrArg₂ Cert.Model.sumInto ((stable8 m ρ c main_v3 (by decide)).trans (main_v3_W1 m ρ c)) (gath2 m ρ c hpre))

theorem wrel2 : W9 m ρ c (Proc.devRef .tc main_v33) = Cert.Model.matAt 2 Cert.KernelIdeal.Gen.slices_S3x64x64_S1x64x64_2_0_0 (m ((c.tc : Thread nD τ).loc main_arg3)) :=
  (Stretch.wrel_hostOps2_1 (W8 m ρ c)).trans (congrArg (Cert.Model.matAt 2 Cert.KernelIdeal.Gen.slices_S3x64x64_S1x64x64_2_0_0) ((stable8 m ρ c main_arg3 (by decide)).trans (main_arg3_W1 m ρ c)))
theorem wroot2 : W9 m ρ c (Proc.devRef .tc main_v35) = Cert.Model.matAt 2 Cert.KernelIdeal.Gen.slices_S3x64x64_S1x64x64_2_0_0 (m ((c.tc : Thread nD τ).loc main_arg4)) :=
  (Stretch.wroot_hostOps2_1 (W8 m ρ c)).trans (congrArg (Cert.Model.matAt 2 Cert.KernelIdeal.Gen.slices_S3x64x64_S1x64x64_2_0_0) ((stable8 m ρ c main_arg4 (by decide)).trans (main_arg4_W1 m ρ c)))
theorem bias2 : W9 m ρ c (Proc.devRef .tc main_v38) = Cert.Model.asRow (Cert.Model.rowAt 2 Cert.KernelIdeal.Gen.slices_S3x64_S1x64_2_0 (m ((c.tc : Thread nD τ).loc main_arg5))) :=
  (Stretch.bias_hostOps2_1 (W8 m ρ c)).trans
    ((congrArg (fun v => Cert.KModel.rowOf64 (Cert.Model.rowAt 2 Cert.KernelIdeal.Gen.slices_S3x64_S1x64_2_0 v)) ((stable8 m ρ c main_arg5 (by decide)).trans (main_arg5_W1 m ρ c))).trans
      (Cert.RefOps.rowOf64_eq _))

/-- The features after layer 2: the model's step. -/
theorem feat2 (hpre : Cert.Pre_KernelIdeal m) : W10 m ρ c (Proc.devRef .tc main_v39) = (Cert.Model.step 2 Cert.ReferenceIdeal.Gen.slices_S3x64x64_S1x64x64_2_0_0 Cert.ReferenceIdeal.Gen.slices_S3x64_S1x64_2_0 (m ((c.tc : Thread nD τ).loc main_arg1)) (m ((c.tc : Thread nD τ).loc main_arg3)) (m ((c.tc : Thread nD τ).loc main_arg4)) (m ((c.tc : Thread nD τ).loc main_arg5)) (Cert.Model.step 1 Cert.ReferenceIdeal.Gen.slices_S3x64x64_S1x64x64_1_0_0 Cert.ReferenceIdeal.Gen.slices_S3x64_S1x64_1_0 (m ((c.tc : Thread nD τ).loc main_arg1)) (m ((c.tc : Thread nD τ).loc main_arg3)) (m ((c.tc : Thread nD τ).loc main_arg4)) (m ((c.tc : Thread nD τ).loc main_arg5)) (Cert.Model.step 0 Cert.ReferenceIdeal.Gen.slices_S3x64x64_S1x64x64_0_0_0 Cert.ReferenceIdeal.Gen.slices_S3x64_S1x64_0_0 (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg0))))) :=
  (W10_arr m ρ c 5).trans ((Layer2.final (V9 m ρ) c).trans
    (layer_congr (agg2 m ρ c hpre) (featIn2 m ρ c hpre) (wrel2 m ρ c) (wroot2 m ρ c) (bias2 m ρ c)))

/-! ## The pooling and the readout -/

theorem feat2_at10 (hpre : Cert.Pre_KernelIdeal m) : W10 m ρ c (Proc.devRef .tc main_v39) = (Cert.Model.step 2 Cert.ReferenceIdeal.Gen.slices_S3x64x64_S1x64x64_2_0_0 Cert.ReferenceIdeal.Gen.slices_S3x64_S1x64_2_0 (m ((c.tc : Thread nD τ).loc main_arg1)) (m ((c.tc : Thread nD τ).loc main_arg3)) (m ((c.tc : Thread nD τ).loc main_arg4)) (m ((c.tc : Thread nD τ).loc main_arg5)) (Cert.Model.step 1 Cert.ReferenceIdeal.Gen.slices_S3x64x64_S1x64x64_1_0_0 Cert.ReferenceIdeal.Gen.slices_S3x64_S1x64_1_0 (m ((c.tc : Thread nD τ).loc main_arg1)) (m ((c.tc : Thread nD τ).loc main_arg3)) (m ((c.tc : Thread nD τ).loc main_arg4)) (m ((c.tc : Thread nD τ).loc main_arg5)) (Cert.Model.step 0 Cert.ReferenceIdeal.Gen.slices_S3x64x64_S1x64x64_0_0_0 Cert.ReferenceIdeal.Gen.slices_S3x64_S1x64_0_0 (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg0))))) := feat2 m ρ c hpre

/-- The pooled rows when the last region is entered. -/
theorem pooled11 (hpre : Cert.Pre_KernelIdeal m) :
    W11 m ρ c (Proc.devRef .tc main_v42) = Cert.Model.pool (m ((c.tc : Thread nD τ).loc main_arg2)) (Cert.Model.step 2 Cert.ReferenceIdeal.Gen.slices_S3x64x64_S1x64x64_2_0_0 Cert.ReferenceIdeal.Gen.slices_S3x64_S1x64_2_0 (m ((c.tc : Thread nD τ).loc main_arg1)) (m ((c.tc : Thread nD τ).loc main_arg3)) (m ((c.tc : Thread nD τ).loc main_arg4)) (m ((c.tc : Thread nD τ).loc main_arg5)) (Cert.Model.step 1 Cert.ReferenceIdeal.Gen.slices_S3x64x64_S1x64x64_1_0_0 Cert.ReferenceIdeal.Gen.slices_S3x64_S1x64_1_0 (m ((c.tc : Thread nD τ).loc main_arg1)) (m ((c.tc : Thread nD τ).loc main_arg3)) (m ((c.tc : Thread nD τ).loc main_arg4)) (m ((c.tc : Thread nD τ).loc main_arg5)) (Cert.Model.step 0 Cert.ReferenceIdeal.Gen.slices_S3x64x64_S1x64x64_0_0_0 Cert.ReferenceIdeal.Gen.slices_S3x64_S1x64_0_0 (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg0))))) :=
  (Stretch.pool_hostOps3 (W10 m ρ c)).trans (congrArg₂ Cert.Model.pool ((stable10 m ρ c main_arg2 (by decide)).trans (main_arg2_W1 m ρ c)) (feat2 m ρ c hpre))

theorem b1row : W11 m ρ c (Proc.devRef .tc main_v43) = Cert.Model.asRow (m ((c.tc : Thread nD τ).loc main_arg7)) :=
  (Stretch.b1_hostOps3 (W10 m ρ c)).trans ((congrArg Cert.KModel.rowOf128 ((stable10 m ρ c main_arg7 (by decide)).trans (main_arg7_W1 m ρ c))).trans (Cert.RefOps.rowOf128_eq _))
theorem b2row : W11 m ρ c (Proc.devRef .tc main_v44) = Cert.Model.asRow (m ((c.tc : Thread nD τ).loc main_arg9)) :=
  (Stretch.b2_hostOps3 (W10 m ρ c)).trans ((congrArg Cert.KModel.rowOf2 ((stable10 m ρ c main_arg9 (by decide)).trans (main_arg9_W1 m ρ c))).trans (Cert.RefOps.rowOf2_eq _))

/-- THE SECOND RESULT at the last boundary: the pooled rows (the last region stages them and never writes them back). -/
theorem pooled_eq (hpre : Cert.Pre_KernelIdeal m) :
    W12 m ρ c (Proc.devRef .tc main_v42) = Cert.Model.pooled (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W12_arr m ρ c 0).trans (((dat3 (V11 m ρ) c).arrAt_in 0 rfl _).trans ((A_eq3 (V11 m ρ) c 0).trans (pooled11 m ρ c hpre)))

/-- THE FIRST RESULT at the last boundary: the class scores. -/
theorem scores_eq (hpre : Cert.Pre_KernelIdeal m) :
    W12 m ρ c (Proc.devRef .tc main_v45) = Cert.Model.scores (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) (m ((c.tc : Thread nD τ).loc main_arg9)) :=
  (W12_arr m ρ c 5).trans ((Readout.final (V11 m ρ) c).trans
    (readout_congr (pooled11 m ρ c hpre) ((stable11 m ρ c main_arg6 (by decide)).trans (main_arg6_W1 m ρ c)) (b1row m ρ c) ((stable11 m ρ c main_arg8 (by decide)).trans (main_arg8_W1 m ρ c)) (b2row m ρ c)))

end Cert.KernelIdeal.KValue

end
-- ==== Proof.RefValue.lean ====
/-
  The reference program's two results as the model's functions of its arguments: its composed host operations are,
  layer by layer, the model's update (the bias joins the sum before the second product there: one sum all the same),
  then the per-graph sums and the perceptron with the logistic spelt `1 / (1 + e^(-x))`.
-/
import proofs.«408034_j60224031425327_1_alg».proof.Proof.Gen.ReferenceIdeal.Run
import proofs.«408034_j60224031425327_1_alg».proof.Proof.Model
import proofs.«408034_j60224031425327_1_alg».proof.Proof.RefOps

set_option maxRecDepth 16384

noncomputable section

namespace Cert.ReferenceIdeal.RefValue

open Cert.ReferenceIdeal Cert.ReferenceIdeal.Gen Cert.ReferenceIdeal.Value Idealize.ShloMosaic Idealize.ShloMosaic.TcCoe Idealize.SL.Sem

variable (m : (ℓ : Loc nD τ sig) → Buf (Elt Ideal) ℓ)

/-- The pooled rows. -/
theorem pooled_eq (c : Dev nD) :
    res_main_v75 (F := Ideal) m c
      = Cert.Model.pooled (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold res_main_v75 Cert.Model.pooled Cert.Model.pool Cert.Model.features Cert.Model.step
  rw [← Cert.RefOps.layer_eq, ← Cert.RefOps.layer_eq, ← Cert.RefOps.layer_eq]
  unfold Cert.Model.aggregate Cert.Model.sumInto Cert.Model.rowsAt Cert.Model.wrapCol Cert.Model.srcRow Cert.Model.dstRow
    Cert.Model.matAt Cert.Model.rowAt
  rfl

/-- The class scores. -/
theorem scores_eq (c : Dev nD) :
    res_main_v90 (F := Ideal) m c
      = Cert.Model.scores (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  unfold res_main_v90 Cert.Model.scores Cert.Model.pooled Cert.Model.pool Cert.Model.features Cert.Model.step
  rw [← Cert.RefOps.readout_eq, ← Cert.RefOps.layer_eq, ← Cert.RefOps.layer_eq, ← Cert.RefOps.layer_eq]
  unfold Cert.Model.aggregate Cert.Model.sumInto Cert.Model.rowsAt Cert.Model.wrapCol Cert.Model.srcRow Cert.Model.dstRow
    Cert.Model.matAt Cert.Model.rowAt
  rfl

end Cert.ReferenceIdeal.RefValue

end
-- ==== Proof.lean ====
/-
  The kernel (three fused graph-convolution node updates and a fused perceptron readout, as Pallas regions among
  host gathers and scatter sums) against its jnp reference, over the extended reals.

  Both programs compute one network (the model): per layer, every node sums the rows of the nodes at the sources of
  its in-edges and is updated to `max (agg · W_rel + h · W_root + b, 0)`; after three layers the rows are summed per
  graph and a two-layer perceptron with a logistic output reads the pooled rows. They differ in three spellings.
  The kernel gathers in fill mode (a source index outside the rows yields a filled row, where the reference's plain
  gather clamps): under the precondition every source index is a row number, and the two gathers agree. The kernel
  adds the bias after the second product, the reference before it: addition of extended reals is commutative and
  associative. The kernel's logistic is one operation, the reference's `1 / (1 + e^(-x))`: one function of the
  extended reals. Nothing else differs, and nothing here needs the inputs finite.

  The kernel's run is the generated frame's launch read at the result buffers, whose contents are walked back
  through @main's host stretches and regions to the model; the reference's run is its generated run, read as the
  model layer by layer.
-/
import proofs.«408034_j60224031425327_1_alg».proof.Defs
import proofs.«408034_j60224031425327_1_alg».proof.Proof.Gen.Kernel
import proofs.«408034_j60224031425327_1_alg».proof.Proof.Gen.Kernel.Frame
import proofs.«408034_j60224031425327_1_alg».proof.Proof.Gen.KernelIdeal
import proofs.«408034_j60224031425327_1_alg».proof.Proof.Gen.KernelIdeal.Frame
import proofs.«408034_j60224031425327_1_alg».proof.Proof.Gen.ReferenceIdeal
import proofs.«408034_j60224031425327_1_alg».proof.Proof.Gen.ReferenceIdeal.Run
import proofs.«408034_j60224031425327_1_alg».proof.Proof.Gen.Pre_finite_inputs
import proofs.«408034_j60224031425327_1_alg».proof.Proof.KRun
import proofs.«408034_j60224031425327_1_alg».proof.Proof.KValue
import proofs.«408034_j60224031425327_1_alg».proof.Proof.RefValue
import Idealize.ShloMosaic.Adequacy
import Idealize.ShloMosaic.Init

set_option maxRecDepth 16384

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The reference runs and keeps its arguments: its run, the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the model's class scores and pooled rows of arguments that agree. -/
theorem algebraic : Cert.algebraic_KernelIdeal_ReferenceIdeal := by
  intro m ρ m' ρ' hpre hagree
  refine ⟨fun c => Cert.Model.scores (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), fun c => Cert.Model.pooled (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Named.run_named (F := Ideal) m ρ)
    exact ⟨(h c).1.trans (Cert.KernelIdeal.KValue.scores_eq m ρ c hpre),
      (h c).2.1.trans (Cert.KernelIdeal.KValue.pooled_eq m ρ c hpre), (h c).2.2⟩
  · refine (θ_run Cert.ReferenceIdeal.defs _ _).mono (fun r h c => ?_) (Cert.ReferenceIdeal.Value.run (F := Ideal) m' ρ')
    refine ⟨(h c).1.trans ?_, (h c).2.1.trans ?_, (h c).2.2⟩
    · rw [Cert.ReferenceIdeal.RefValue.scores_eq m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
    · rw [Cert.ReferenceIdeal.RefValue.pooled_eq m' c, (hagree c).1, (hagree c).2.1, (hagree c).2.2.1, (hagree c).2.2.2.1, (hagree c).2.2.2.2.1, (hagree c).2.2.2.2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
